-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x64 : Shape := ⟨2, ![30000, 64]⟩
abbrev S50000x128 : Shape := ⟨2, ![50000, 128]⟩
abbrev S32x8 : Shape := ⟨2, ![32, 8]⟩
abbrev S128x137 : Shape := ⟨2, ![128, 137]⟩
abbrev S128 : Shape := ⟨1, ![128]⟩
abbrev S_ : Shape := ⟨0, ![]⟩

class Facts : Prop where
  bcast_S_S30000x64 : S_.BroadcastsInDim S30000x64 (![] : Fin 0 → Fin S30000x64.rank)
  reducesTo_S30000x64_S_d0_1 : S30000x64.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S32x8 : S_.BroadcastsInDim S32x8 (![] : Fin 0 → Fin S32x8.rank)
  reducesTo_S32x8_S_d0_1 : S32x8.ReducesTo [0, 1] S_
  bcast_S_S128x137 : S_.BroadcastsInDim S128x137 (![] : Fin 0 → Fin S128x137.rank)
  reducesTo_S128x137_S_d0_1 : S128x137.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg2 : IVec S30000x64 32) (main_arg6 : FVec F S128 .f32) (main_v13 : IVec S_ 1) (main_v16 : IVec S128x137 1) : IVec S_ 1 :=
  let main_c_5 : IVec S_ 1 := constantI S_ 1 1#1
  let main_v17 : IVec S_ 1 := (fun x v => Host.reduce IntOp.andi x v reducesTo_S128x137_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S30000x64 32 := broadcastInDim S30000x64 ![] bcast_S_S30000x64 main_c_8
  let main_v25 : IVec S30000x64 1 := cmpi .sge main_arg2 main_v24
  let main_c_9 : IVec S_ 32 := constantI S_ 32 32#32
  let main_v26 : IVec S30000x64 32 := broadcastInDim S30000x64 ![] bcast_S_S30000x64 main_c_9
  let main_v27 : IVec S30000x64 1 := cmpi .slt main_arg2 main_v26
  let main_v28 : IVec S30000x64 1 := andi main_v25 main_v27
  let main_c_10 : IVec S_ 1 := constantI S_ 1 1#1
  let main_v29 : IVec S_ 1 := (fun x v => Host.reduce IntOp.andi x v reducesTo_S30000x64_S_d0_1 h_S_) main_v28 main_c_10
  let main_v30 : IVec S_ 1 := andi main_v23 main_v29
  main_v30

def fn {F : FTy → Type} [FloatOps F] (main_arg0 : IVec S30000x64 32) (main_arg1 : FVec F S30000x64 .f32) (main_arg2 : IVec S30000x64 32) (main_arg3 : FVec F S50000x128 .f32) (main_arg4 : FVec F S32x8 .f32) (main_arg5 : FVec F S128x137 .f32) (main_arg6 : FVec F S128 .f32) : IVec S_ 1 :=
  let main_v0 : FVec F S30000x64 .f32 := Host.absf main_arg1
  let main_cst : FVec F S_ .f32 := constant S_ .f32 0x7F800000#32
  let main_v1 : FVec F S30000x64 .f32 := broadcastInDim S30000x64 ![] bcast_S_S30000x64 main_cst
  let main_v2 : IVec S30000x64 1 := cmpf .olt main_v0 main_v1
  let main_c : IVec S_ 1 := constantI S_ 1 1#1
  let main_v3 : IVec S_ 1 := (fun x v => Host.reduce IntOp.andi x v reducesTo_S30000x64_S_d0_1 h_S_) main_v2 main_c
  let main_v4 : FVec F S50000x128 .f32 := Host.absf main_arg3
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S32x8 .f32 := Host.absf main_arg4
  let main_cst_2 : FVec F S_ .f32 := constant S_ .f32 0x7F800000#32
  let main_v10 : FVec F S32x8 .f32 := broadcastInDim S32x8 ![] bcast_S_S32x8 main_cst_2
  let main_v11 : IVec S32x8 1 := cmpf .olt main_v9 main_v10
  let main_c_3 : IVec S_ 1 := constantI S_ 1 1#1
  let main_v12 : IVec S_ 1 := (fun x v => Host.reduce IntOp.andi x v reducesTo_S32x8_S_d0_1 h_S_) main_v11 main_c_3
  let main_v13 : IVec S_ 1 := andi main_v8 main_v12
  let main_v14 : FVec F S128x137 .f32 := Host.absf main_arg5
  let main_cst_4 : FVec F S_ .f32 := constant S_ .f32 0x7F800000#32
  let main_v15 : FVec F S128x137 .f32 := broadcastInDim S128x137 ![] bcast_S_S128x137 main_cst_4
  let main_v16 : IVec S128x137 1 := cmpf .olt main_v14 main_v15
  fn_part1 (F := F) main_arg2 main_arg6 main_v13 main_v16
-- ==== Kernel.lean ====
abbrev S30000x64 : Shape := ⟨2, ![30000, 64]⟩
abbrev S50000x128 : Shape := ⟨2, ![50000, 128]⟩
abbrev S32x8 : Shape := ⟨2, ![32, 8]⟩
abbrev S128x137 : Shape := ⟨2, ![128, 137]⟩
abbrev S128 : Shape := ⟨1, ![128]⟩
abbrev S_ : Shape := ⟨0, ![]⟩
abbrev S30000x64x1 : Shape := ⟨3, ![30000, 64, 1]⟩
abbrev S30000x64x128 : Shape := ⟨3, ![30000, 64, 128]⟩
abbrev S128x128 : Shape := ⟨2, ![128, 128]⟩
abbrev S128x8 : Shape := ⟨2, ![128, 8]⟩
abbrev S128x1 : Shape := ⟨2, ![128, 1]⟩
abbrev S8x128 : Shape := ⟨2, ![8, 128]⟩
abbrev S30000x128 : Shape := ⟨2, ![30000, 128]⟩
abbrev S600x64 : Shape := ⟨2, ![600, 64]⟩
abbrev S600x64x128 : Shape := ⟨3, ![600, 64, 128]⟩
abbrev S600x128 : Shape := ⟨2, ![600, 128]⟩
abbrev S600x64x1 : Shape := ⟨3, ![600, 64, 1]⟩
abbrev S600x64x32 : Shape := ⟨3, ![600, 64, 32]⟩
abbrev S600x32 : Shape := ⟨2, ![600, 32]⟩
abbrev S600x8 : Shape := ⟨2, ![600, 8]⟩
abbrev S600 : Shape := ⟨1, ![600]⟩
abbrev S600x1 : Shape := ⟨2, ![600, 1]⟩
abbrev S1x128 : Shape := ⟨2, ![1, 128]⟩

abbrev nBuf : Space → Nat
  | .hbm => 23
  | .vmem => 15
  | .smem => 0
  | _ => 0

abbrev bufTy : (tb : Table) → Fin (tcTables nBuf tb) → BufTy
  | .hbm, ⟨0, _⟩ => ⟨S30000x64, .i32⟩
  | .hbm, ⟨1, _⟩ => ⟨S30000x64, .f32⟩
  | .hbm, ⟨2, _⟩ => ⟨S30000x64, .i32⟩
  | .hbm, ⟨3, _⟩ => ⟨S50000x128, .f32⟩
  | .hbm, ⟨4, _⟩ => ⟨S32x8, .f32⟩
  | .hbm, ⟨5, _⟩ => ⟨S128x137, .f32⟩
  | .hbm, ⟨6, _⟩ => ⟨S128, .f32⟩
  | .hbm, ⟨7, _⟩ => ⟨S_, .i32⟩
  | .hbm, ⟨8, _⟩ => ⟨S30000x64, .i32⟩
  | .hbm, ⟨9, _⟩ => ⟨S30000x64, .i1⟩
  | .hbm, ⟨10, _⟩ => ⟨S_, .i32⟩
  | .hbm, ⟨11, _⟩ => ⟨S30000x64, .i32⟩
  | .hbm, ⟨12, _⟩ => ⟨S30000x64, .i32⟩
  | .hbm, ⟨13, _⟩ => ⟨S30000x64, .i32⟩
  | .hbm, ⟨14, _⟩ => ⟨S30000x64x1, .i32⟩
  | .hbm, ⟨15, _⟩ => ⟨S30000x64x128, .f32⟩
  | .hbm, ⟨16, _⟩ => ⟨S128x128, .f32⟩
  | .hbm, ⟨17, _⟩ => ⟨S128x8, .f32⟩
  | .hbm, ⟨18, _⟩ => ⟨S128x1, .f32⟩
  | .hbm, ⟨19, _⟩ => ⟨S128, .f32⟩
  | .hbm, ⟨20, _⟩ => ⟨S128x128, .f32⟩
  | .hbm, ⟨21, _⟩ => ⟨S8x128, .f32⟩
  | .hbm, ⟨22, _⟩ => ⟨S30000x128, .f32⟩
  | .local _ .vmem, ⟨0, _⟩ => ⟨S600x64, .i32⟩
  | .local _ .vmem, ⟨1, _⟩ => ⟨S600x64, .i32⟩
  | .local _ .vmem, ⟨2, _⟩ => ⟨S600x64, .f32⟩
  | .local _ .vmem, ⟨3, _⟩ => ⟨S600x64, .f32⟩
  | .local _ .vmem, ⟨4, _⟩ => ⟨S600x64, .i32⟩
  | .local _ .vmem, ⟨5, _⟩ => ⟨S600x64, .i32⟩
  | .local _ .vmem, ⟨6, _⟩ => ⟨S600x64x128, .f32⟩
  | .local _ .vmem, ⟨7, _⟩ => ⟨S600x64x128, .f32⟩
  | .local _ .vmem, ⟨8, _⟩ => ⟨S32x8, .f32⟩
  | .local _ .vmem, ⟨9, _⟩ => ⟨S128x128, .f32⟩
  | .local _ .vmem, ⟨10, _⟩ => ⟨S8x128, .f32⟩
  | .local _ .vmem, ⟨11, _⟩ => ⟨S128, .f32⟩
  | .local _ .vmem, ⟨12, _⟩ => ⟨S128, .f32⟩
  | .local _ .vmem, ⟨13, _⟩ => ⟨S600x128, .f32⟩
  | .local _ .vmem, ⟨14, _⟩ => ⟨S600x128, .f32⟩
  | _, _ => ⟨S30000x64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S600x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S600x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S600x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S600x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S600x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S30000x64 : S_.BroadcastsInDim S30000x64 (![] : Fin 0 → Fin S30000x64.rank)
  bcast_S30000x64_S30000x64x1_0_1 : S30000x64.BroadcastsInDim S30000x64x1 (![0, 1] : Fin 2 → Fin S30000x64x1.rank)
  slices_S128x137_S128x128_0_0 : S128x137.Slices ![0, 0] S128x128
  slices_S128x137_S128x8_0_128 : S128x137.Slices ![0, 128] S128x8
  slices_S128x137_S128x1_0_136 : S128x137.Slices ![0, 136] S128x1
  shapeCasts_S128x1_S128 : S128x1.ShapeCasts S128
  transposes_S128x128_S128x128_1_0 : S128x128.Transposes [1, 0] S128x128
  transposes_S128x8_S8x128_1_0 : S128x8.Transposes [1, 0] S8x128
  inb_S600x64_S600x64_0_0 : ∀ a, (![0, 0] : Fin 2 → Nat) a + S600x64.size a ≤ S600x64.size a
  h_S600x64 : 0 < S600x64.numel
  inb_S600x64x128_S600x64x128_0_0_0 : ∀ a, (![0, 0, 0] : Fin 3 → Nat) a + S600x64x128.size a ≤ S600x64x128.size a
  h_S600x64x128 : 0 < S600x64x128.numel
  shapeCasts_S600x64x128_S600x64x128 : S600x64x128.ShapeCasts S600x64x128
  natLt_1_32 : 1 < 32
  shapeCasts_S600x64_S600x64x1 : S600x64.ShapeCasts S600x64x1
  broadcasts_S600x64x1_S600x64x128 : S600x64x1.Broadcasts S600x64x128
  reduces_S600x64x128_S600x128 : S600x64x128.Reduces [1] S600x128
  iota_S600x64x32_d2_w32 : S600x64x32.Iotas .tc 32 [2]
  broadcasts_S600x64x1_S600x64x32 : S600x64x1.Broadcasts S600x64x32
  reduces_S600x64x32_S600x32 : S600x64x32.Reduces [1] S600x32
  inb_S32x8_S32x8_0_0 : ∀ a, (![0, 0] : Fin 2 → Nat) a + S32x8.size a ≤ S32x8.size a
  h_S32x8 : 0 < S32x8.numel
  reduces_S600x64_S600 : S600x64.Reduces [1] S600
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S128_S128_0 : ∀ a, (![0] : Fin 1 → Nat) a + S128.size a ≤ S128.size a
  h_S128 : 0 < S128.numel
  shapeCasts_S128_S128 : S128.ShapeCasts S128
  shapeCasts_S600_S600x1 : S600.ShapeCasts S600x1
  shapeCasts_S128_S1x128 : S128.ShapeCasts S1x128
  broadcasts_S600x1_S600x128 : S600x1.Broadcasts S600x128
  broadcasts_S1x128_S600x128 : S1x128.Broadcasts S600x128
  inb_S600x128_S600x128_0_0 : ∀ a, (![0, 0] : Fin 2 → Nat) a + S600x128.size a ≤ S600x128.size a
  h_S600x128 : 0 < S600x128.numel
  gather_S50000x128_S30000x64x1_S30000x64x128_2_0_n_n_0_2_1128_wf : GatherDims.WF S50000x128 S30000x64x1 S30000x64x128 [2] [0] [] [0] [] 2 ![1, 128]
  dot_S600x32_S32x8_S600x8_1_0_0_1_n_n_wf : DotDims.WF S600x32 S32x8 S600x8 [1] [0] [0] [1] [] []
  dot_S600x128_S128x128_S600x128_1_0_0_1_n_n_wf : DotDims.WF S600x128 S128x128 S600x128 [1] [0] [0] [1] [] []
  dot_S600x8_S8x128_S600x128_1_0_0_1_n_n_wf : DotDims.WF S600x8 S8x128 S600x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S600x64.size a ≤ S30000x64.size a
  hwx0_0 : ∀ i : grid0.Coords, EltTy.bits .i32 = 32 ∨ (Rect.block (s := S30000x64) S600x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S600x64.size a ≤ S30000x64.size a
  hwx0_1 : ∀ i : grid0.Coords, EltTy.bits .f32 = 32 ∨ (Rect.block (s := S30000x64) S600x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S600x64.size a ≤ S30000x64.size a
  hwx0_2 : ∀ i : grid0.Coords, EltTy.bits .i32 = 32 ∨ (Rect.block (s := S30000x64) S600x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S600x64x128.size a ≤ S30000x64x128.size a
  hwx0_3 : ∀ i : grid0.Coords, EltTy.bits .f32 = 32 ∨ (Rect.block (s := S30000x64x128) S600x64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x8.size a ≤ S32x8.size a
  hwx0_4 : ∀ i : grid0.Coords, EltTy.bits .f32 = 32 ∨ (Rect.block (s := S32x8) S32x8.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S8x128.size a
  hwx0_6 : ∀ i : grid0.Coords, EltTy.bits .f32 = 32 ∨ (Rect.block (s := S8x128) S8x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S600x128.size a ≤ S30000x128.size a
  hwx0_9 : ∀ i : grid0.Coords, EltTy.bits .f32 = 32 ∨ (Rect.block (s := S30000x128) S600x128.size (cc0_transform_9 i) (hinb0_9 i)).WholeWords (EltTy.packing .f32)

variable [Facts₀]

def gather_S50000x128_S30000x64x1_S30000x64x128_2_0_n_n_0_2_1128 : GatherDims S50000x128 S30000x64x1 S30000x64x128 where
  offsetDims := [2]
  collapsedSliceDims := [0]
  operandBatchingDims := []
  startIndicesBatchingDims := []
  startIndexMap := [0]
  indexVectorDim := 2
  sliceSizes := ![1, 128]
  wf := gather_S50000x128_S30000x64x1_S30000x64x128_2_0_n_n_0_2_1128_wf
def dot_S600x32_S32x8_S600x8_1_0_0_1_n_n : DotDims S600x32 S32x8 S600x8 where
  lhsContracting := [1]
  rhsContracting := [0]
  lhsNonContracting := [0]
  rhsNonContracting := [1]
  lhsBatch := []
  rhsBatch := []
  wf := dot_S600x32_S32x8_S600x8_1_0_0_1_n_n_wf
def dot_S600x128_S128x128_S600x128_1_0_0_1_n_n : DotDims S600x128 S128x128 S600x128 where
  lhsContracting := [1]
  rhsContracting := [0]
  lhsNonContracting := [0]
  rhsNonContracting := [1]
  lhsBatch := []
  rhsBatch := []
  wf := dot_S600x128_S128x128_S600x128_1_0_0_1_n_n_wf
def dot_S600x8_S8x128_S600x128_1_0_0_1_n_n : DotDims S600x8 S8x128 S600x128 where
  lhsContracting := [1]
  rhsContracting := [0]
  lhsNonContracting := [0]
  rhsNonContracting := [1]
  lhsBatch := []
  rhsBatch := []
  wf := dot_S600x8_S8x128_S600x128_1_0_0_1_n_n_wf

abbrev win0_0 : Pipeline.Window sig grid0 :=
  Pipeline.Window.ofSpec (Memref.whole main_arg0) S600x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S600x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S600x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S600x64x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x8.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S8x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S600x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S30000x64 : Shape := ⟨2, ![30000, 64]⟩
abbrev S50000x128 : Shape := ⟨2, ![50000, 128]⟩
abbrev S32x8 : Shape := ⟨2, ![32, 8]⟩
abbrev S128x137 : Shape := ⟨2, ![128, 137]⟩
abbrev S128 : Shape := ⟨1, ![128]⟩
abbrev S_ : Shape := ⟨0, ![]⟩
abbrev S30000x64x1 : Shape := ⟨3, ![30000, 64, 1]⟩
abbrev S30000x64x128 : Shape := ⟨3, ![30000, 64, 128]⟩
abbrev S30000x64x8 : Shape := ⟨3, ![30000, 64, 8]⟩
abbrev S30000x64x137 : Shape := ⟨3, ![30000, 64, 137]⟩
abbrev S1x1x128 : Shape := ⟨3, ![1, 1, 128]⟩
abbrev S30000x128 : Shape := ⟨2, ![30000, 128]⟩
abbrev S30000x1 : Shape := ⟨2, ![30000, 1]⟩

abbrev nBuf : Space → Nat
  | .hbm => 48
  | .vmem => 0
  | .smem => 0
  | _ => 0

abbrev bufTy : (tb : Table) → Fin (tcTables nBuf tb) → BufTy
  | .hbm, ⟨0, _⟩ => ⟨S30000x64, .i32⟩
  | .hbm, ⟨1, _⟩ => ⟨S30000x64, .f32⟩
  | .hbm, ⟨2, _⟩ => ⟨S30000x64, .i32⟩
  | .hbm, ⟨3, _⟩ => ⟨S50000x128, .f32⟩
  | .hbm, ⟨4, _⟩ => ⟨S32x8, .f32⟩
  | .hbm, ⟨5, _⟩ => ⟨S128x137, .f32⟩
  | .hbm, ⟨6, _⟩ => ⟨S128, .f32⟩
  | .hbm, ⟨7, _⟩ => ⟨S_, .i32⟩
  | .hbm, ⟨8, _⟩ => ⟨S30000x64, .i32⟩
  | .hbm, ⟨9, _⟩ => ⟨S30000x64, .i1⟩
  | .hbm, ⟨10, _⟩ => ⟨S30000x64, .f32⟩
  | .hbm, ⟨11, _⟩ => ⟨S_, .i32⟩
  | .hbm, ⟨12, _⟩ => ⟨S30000x64, .i32⟩
  | .hbm, ⟨13, _⟩ => ⟨S30000x64, .i1⟩
  | .hbm, ⟨14, _⟩ => ⟨S_, .i32⟩
  | .hbm, ⟨15, _⟩ => ⟨S30000x64, .i32⟩
  | .hbm, ⟨16, _⟩ => ⟨S30000x64, .i32⟩
  | .hbm, ⟨17, _⟩ => ⟨S30000x64, .i32⟩
  | .hbm, ⟨18, _⟩ => ⟨S30000x64x1, .i32⟩
  | .hbm, ⟨19, _⟩ => ⟨S30000x64x128, .f32⟩
  | .hbm, ⟨20, _⟩ => ⟨S_, .i32⟩
  | .hbm, ⟨21, _⟩ => ⟨S30000x64, .i32⟩
  | .hbm, ⟨22, _⟩ => ⟨S30000x64, .i1⟩
  | .hbm, ⟨23, _⟩ => ⟨S_, .i32⟩
  | .hbm, ⟨24, _⟩ => ⟨S30000x64, .i32⟩
  | .hbm, ⟨25, _⟩ => ⟨S30000x64, .i32⟩
  | .hbm, ⟨26, _⟩ => ⟨S30000x64, .i32⟩
  | .hbm, ⟨27, _⟩ => ⟨S30000x64x1, .i32⟩
  | .hbm, ⟨28, _⟩ => ⟨S30000x64x8, .f32⟩
  | .hbm, ⟨29, _⟩ => ⟨S30000x64x1, .f32⟩
  | .hbm, ⟨30, _⟩ => ⟨S30000x64x137, .f32⟩
  | .hbm, ⟨31, _⟩ => ⟨S30000x64x128, .f32⟩
  | .hbm, ⟨32, _⟩ => ⟨S1x1x128, .f32⟩
  | .hbm, ⟨33, _⟩ => ⟨S30000x64x128, .f32⟩
  | .hbm, ⟨34, _⟩ => ⟨S30000x64x128, .f32⟩
  | .hbm, ⟨35, _⟩ => ⟨S30000x64x1, .f32⟩
  | .hbm, ⟨36, _⟩ => ⟨S30000x64x1, .f32⟩
  | .hbm, ⟨37, _⟩ => ⟨S30000x64x128, .f32⟩
  | .hbm, ⟨38, _⟩ => ⟨S30000x64x128, .f32⟩
  | .hbm, ⟨39, _⟩ => ⟨S_, .f32⟩
  | .hbm, ⟨40, _⟩ => ⟨S30000x128, .f32⟩
  | .hbm, ⟨41, _⟩ => ⟨S_, .f32⟩
  | .hbm, ⟨42, _⟩ => ⟨S30000x1, .f32⟩
  | .hbm, ⟨43, _⟩ => ⟨S_, .f32⟩
  | .hbm, ⟨44, _⟩ => ⟨S30000x1, .f32⟩
  | .hbm, ⟨45, _⟩ => ⟨S30000x1, .f32⟩
  | .hbm, ⟨46, _⟩ => ⟨S30000x128, .f32⟩
  | .hbm, ⟨47, _⟩ => ⟨S30000x128, .f32⟩
  | _, _ => ⟨S30000x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩

abbrev nD : Nat := 1
abbrev τ : Topo := Topo.v7x

variable {F : FTy → Type} [FloatOps F]

class Facts₀ : Prop where
  bcast_S_S30000x64 : S_.BroadcastsInDim S30000x64 (![] : Fin 0 → Fin S30000x64.rank)
  bcast_S30000x64_S30000x64x1_0_1 : S30000x64.BroadcastsInDim S30000x64x1 (![0, 1] : Fin 2 → Fin S30000x64x1.rank)
  concatenates_S30000x64x128_S30000x64x8_S30000x64x1_S30000x64x137_d2 : Shape.Concatenates [S30000x64x128, S30000x64x8, S30000x64x1] S30000x64x137 2
  bcast_S128_S1x1x128_2 : S128.BroadcastsInDim S1x1x128 (![2] : Fin 1 → Fin S1x1x128.rank)
  bcast_S1x1x128_S30000x64x128_0_1_2 : S1x1x128.BroadcastsInDim S30000x64x128 (![0, 1, 2] : Fin 3 → Fin S30000x64x128.rank)
  bcast_S30000x64x1_S30000x64x128_0_1_2 : S30000x64x1.BroadcastsInDim S30000x64x128 (![0, 1, 2] : Fin 3 → Fin S30000x64x128.rank)
  reducesTo_S30000x64x128_S30000x128_d1 : S30000x64x128.ReducesTo [1] S30000x128
  h_S_ : 0 < S_.numel
  reducesTo_S30000x64x1_S30000x1_d1 : S30000x64x1.ReducesTo [1] S30000x1
  bcast_S_S30000x1 : S_.BroadcastsInDim S30000x1 (![] : Fin 0 → Fin S30000x1.rank)
  bcast_S30000x1_S30000x128_0_1 : S30000x1.BroadcastsInDim S30000x128 (![0, 1] : Fin 2 → Fin S30000x128.rank)
  gather_S50000x128_S30000x64x1_S30000x64x128_2_0_n_n_0_2_1128_wf : GatherDims.WF S50000x128 S30000x64x1 S30000x64x128 [2] [0] [] [0] [] 2 ![1, 128]
  gather_S32x8_S30000x64x1_S30000x64x8_2_0_n_n_0_2_18_wf : GatherDims.WF S32x8 S30000x64x1 S30000x64x8 [2] [0] [] [0] [] 2 ![1, 8]
  dot_S30000x64x137_S128x137_S30000x64x128_2_1_01_0_n_n_wf : DotDims.WF S30000x64x137 S128x137 S30000x64x128 [2] [1] [0, 1] [0] [] []

variable [Facts₀]

def gather_S50000x128_S30000x64x1_S30000x64x128_2_0_n_n_0_2_1128 : GatherDims S50000x128 S30000x64x1 S30000x64x128 where
  offsetDims := [2]
  collapsedSliceDims := [0]
  operandBatchingDims := []
  startIndicesBatchingDims := []
  startIndexMap := [0]
  indexVectorDim := 2
  sliceSizes := ![1, 128]
  wf := gather_S50000x128_S30000x64x1_S30000x64x128_2_0_n_n_0_2_1128_wf
def gather_S32x8_S30000x64x1_S30000x64x8_2_0_n_n_0_2_18 : GatherDims S32x8 S30000x64x1 S30000x64x8 where
  offsetDims := [2]
  collapsedSliceDims := [0]
  operandBatchingDims := []
  startIndicesBatchingDims := []
  startIndexMap := [0]
  indexVectorDim := 2
  sliceSizes := ![1, 8]
  wf := gather_S32x8_S30000x64x1_S30000x64x8_2_0_n_n_0_2_18_wf
def dot_S30000x64x137_S128x137_S30000x64x128_2_1_01_0_n_n : DotDims S30000x64x137 S128x137 S30000x64x128 where
  lhsContracting := [2]
  rhsContracting := [1]
  lhsNonContracting := [0, 1]
  rhsNonContracting := [0]
  lhsBatch := []
  rhsBatch := []
  wf := dot_S30000x64x137_S128x137_S30000x64x128_2_1_01_0_n_n_wf

class Facts : Prop extends Facts₀ where

variable [Facts]
-- ==== Proof.Spec.lean ====
/-
  One element of the pooled projection, as each program computes it over the extended reals.

  For an output row `n` and an output feature `d` the data are: the 64 token ids and category ids of the row, its 64
  scores `s t`, the 64 looked-up trait rows `e t f` (128 features each), the category table `ce c j` (32 rows of 8), row
  `d` of the projection matrix cut in three (`wt f` for the 128 trait features, `wc j` for the 8 category features, `ws`
  for the score) and the bias `b`. A token's weight is its score times the padding mask `[tok ≠ 0]`.

  The kernel pools first and projects once:
    ( Σ_f (Σ_t e t f · w t) · wt f  +  Σ_j (Σ_c (Σ_t [cat t = c] · w t) · ce c j) · wc j
        +  (Σ_t w t · s t) · ws  +  (Σ_t w t) · b )  /  max (Σ_t w t) ε .
  The reference projects every token and pools afterwards:
    ( 0 + Σ_t ((Σ_f e t f · wt f + Σ_j ce (cat t) j · wc j + s t · ws) + b) · w t )  /  max (0 + Σ_t w t) ε .
  Over the reals these agree by linearity of the projection, once `Σ_c [cat t = c] · ce c j` is read as the looked-up
  row `ce (cat t) j`, which needs the category id inside the table.
-/
import Idealize.ShloMosaic.PureOps.Ideal
import Idealize.ShloMosaic.Lib.ValueIdx

noncomputable section

namespace Cert.PoolProj

open Idealize.ShloMosaic Idealize.ShloMosaic.ValueIdx

/-- An extended real that is an ordinary real number. -/
def IsReal (x : EReal) : Prop := ∃ y : ℝ, x = (y : EReal)

/-- The floor of the denominator's clamp, as the 32-bit word both programs carry. -/
abbrev epsW : BitVec 32 := 0x322BCC77#32

/-- The padding mask `[a ≠ 0]` as the kernel converts it: the one-bit compare widened to 32 bits and read signed. -/
def maskK (a : BitVec 32) : EReal := ((((IntOp.cmpi .ne a 0#32).setWidth 32).toInt : ℝ) : EReal)

/-- The same mask as the reference converts it: the one-bit compare read unsigned. -/
def maskR (a : BitVec 32) : EReal := (((IntOp.cmpi .ne a 0#32).toNat : ℝ) : EReal)

/-- The indicator `[a = c]` of a category id against a table row number, as the kernel converts it. -/
def hotK (a : BitVec 32) (c : Fin 32) : EReal :=
  ((((IntOp.cmpi .eq a (BitVec.ofNat 32 c.val)).setWidth 32).toInt : ℝ) : EReal)

/-- A negative index counted from the table's end, as the reference's lookup does before it reads. -/
def wrap32 (a : BitVec 32) : BitVec 32 := Scalar.select (IntOp.cmpi .slt a 0#32) (IntOp.addi a 32#32) a

/-- The table row the reference's lookup reads for a category id: wrapped, read signed, clamped into the 32 rows. -/
def catRow (a : BitVec 32) : Fin 32 := ⟨min (wrap32 a).toInt.toNat 31, by omega⟩

/-- Everything one output element depends on. -/
structure Row where
  tok : Fin 64 → BitVec 32
  cat : Fin 64 → BitVec 32
  s : Fin 64 → EReal
  e : Fin 64 → Fin 128 → EReal
  ce : Fin 32 → Fin 8 → EReal
  wt : Fin 128 → EReal
  wc : Fin 8 → EReal
  ws : EReal
  b : EReal

namespace Row

variable (r : Row)

/-- A token's weight, in the kernel's spelling of the mask. -/
def wK (t : Fin 64) : EReal := r.s t * maskK (r.tok t)

/-- A token's weight, in the reference's spelling of the mask. -/
def wR (t : Fin 64) : EReal := r.s t * maskR (r.tok t)

/-- The weighted pool of the trait rows, feature `f`. -/
def poolT (f : Fin 128) : EReal := ∑ t : Fin 64, r.e t f * r.wK t

/-- The total weight the row gives category `c`. -/
def agg (c : Fin 32) : EReal := ∑ t : Fin 64, hotK (r.cat t) c * r.wK t

/-- The weighted pool of the category rows, feature `j`. -/
def poolC (j : Fin 8) : EReal := ∑ c : Fin 32, r.agg c * r.ce c j

/-- The weighted pool of the scores. -/
def poolS : EReal := ∑ t : Fin 64, r.wK t * r.s t

/-- The row's total weight, kernel's spelling. -/
def sumWK : EReal := ∑ t : Fin 64, r.wK t

/-- The kernel's numerator: the pooled features projected once, plus the total weight times the bias. -/
def numK : EReal :=
  (((∑ f : Fin 128, r.poolT f * r.wt f) + (∑ j : Fin 8, r.poolC j * r.wc j)) + r.poolS * r.ws) + r.sumWK * r.b

/-- The kernel's element. -/
def outK : EReal := Ideal.div r.numK (max r.sumWK (Ideal.ofBits .f32 epsW))

/-- The reference's projection of token `t`'s 137 features, plus the bias. -/
def projR (t : Fin 64) : EReal :=
  ((∑ f : Fin 128, r.e t f * r.wt f) + (∑ j : Fin 8, r.ce (catRow (r.cat t)) j * r.wc j) + r.s t * r.ws) + r.b

/-- The reference's numerator: the weighted sum of the projected tokens, from the sum's initial zero. -/
def numR : EReal := Ideal.ofBits .f32 0x00000000#32 + ∑ t : Fin 64, r.projR t * r.wR t

/-- The row's total weight, reference's spelling. -/
def sumWR : EReal := Ideal.ofBits .f32 0x00000000#32 + ∑ t : Fin 64, r.wR t

/-- The reference's element. -/
def outR : EReal := Ideal.div r.numR (max r.sumWR (Ideal.ofBits .f32 epsW))

end Row

/-- The row of output element `(n, d)` read off the whole arrays: token ids, scores, category ids, the looked-up
    trait rows `te` (a [30000, 64, 128] array), the category table, the projection matrix and the bias. -/
def rowOf (x0 : (⟨2, ![30000, 64]⟩ : Shape).Idx → BitVec 32) (x1 : (⟨2, ![30000, 64]⟩ : Shape).Idx → EReal)
    (x2 : (⟨2, ![30000, 64]⟩ : Shape).Idx → BitVec 32) (te : (⟨3, ![30000, 64, 128]⟩ : Shape).Idx → EReal)
    (x4 : (⟨2, ![32, 8]⟩ : Shape).Idx → EReal) (x5 : (⟨2, ![128, 137]⟩ : Shape).Idx → EReal)
    (x6 : (⟨1, ![128]⟩ : Shape).Idx → EReal) (n : Fin 30000) (d : Fin 128) : Row where
  tok t := x0 (ix2 n t)
  cat t := x2 (ix2 n t)
  s t := x1 (ix2 n t)
  e t f := te (ix3 n t f)
  ce c j := x4 (ix2 c j)
  wt f := x5 (ix2 d (⟨f.val, by omega⟩ : Fin 137))
  wc j := x5 (ix2 d (⟨128 + j.val, by omega⟩ : Fin 137))
  ws := x5 (ix2 d (⟨136, by omega⟩ : Fin 137))
  b := x6 (ix1 d)

end Cert.PoolProj

end
-- ==== Proof.PreDecode.lean ====
/-
  What the precondition says of the argument arrays, element by element: every float input is an ordinary real number
  (its absolute value is below +∞), and every category id lies in `[0, 32)`, the rows of the category table.

  The precondition is a conjunction of six tests, each an "and" over every element of one array. Its value 1 gives every
  test the value 1, hence every element's compare the value 1. For a float element the compare is `|x| < +∞` over the
  extended reals, with `|x| = max x (-x)`: at `x = ⊤` and at `x = ⊥` the left side is `⊤`, which is not below `⊤`, so `x`
  is a real number. For a category id the two signed compares are `0 ≤ a` and `a < 32`.
-/
import proofs.«412016_j5162550690504_3_alg».proof.Pre_finite_inputs
import proofs.«412016_j5162550690504_3_alg».proof.Proof.Spec
import Idealize.ShloMosaic.Lib.ReduceAll

noncomputable section

namespace Cert.PoolProj

open Idealize.ShloMosaic

/-- A rank-0 array has one index. -/
private instance subsingleton_scalar_idx : Subsingleton Cert.Pre_finite_inputs.S_.Idx :=
  ⟨fun _ _ => funext fun d => d.elim0⟩

/-- The word `0x7F800000` (sign 0, exponent all ones, fraction 0) denotes `+∞`. -/
private theorem inf_word : Ideal.ofBits .f32 0x7F800000#32 = (⊤ : EReal) := by
  simp [Ideal.ofBits, Ideal.ieee]

/-- An extended real whose absolute value `max x (-x)` compares strictly below `+∞` is a real number: at either
    infinity the absolute value is `⊤` itself. -/
private theorem isReal_of_abs_lt (x : EReal)
    (h : Ideal.cmp .olt (max x (-x)) (Ideal.ofBits .f32 0x7F800000#32) = 1#1) : IsReal x := by
  rw [inf_word] at h
  induction x using EReal.rec with
  | bot => simp [Ideal.cmp] at h
  | coe r => exact ⟨r, rfl⟩
  | top => simp [Ideal.cmp] at h

/-- A word that passes the signed compares `a ≥ 0` and `a < 32` reads, signed, as an integer of `[0, 32)`. -/
private theorem range_of_cmp (a : BitVec 32)
    (h : IntOp.andi (IntOp.cmpi .sge a 0#32) (IntOp.cmpi .slt a 32#32) = 1#1) : 0 ≤ a.toInt ∧ a.toInt < 32 := by
  obtain ⟨hge, hlt⟩ := IntOp.andi_eq_one.1 h
  have hge' : (0#32 : BitVec 32).toInt ≤ a.toInt := IntOp.cmpi_sge.1 hge
  have hlt' : a.toInt < (32#32 : BitVec 32).toInt := IntOp.cmpi_slt.1 hlt
  have e0 : (0#32 : BitVec 32).toInt = 0 := by decide
  have e32 : (32#32 : BitVec 32).toInt = 32 := by decide
  rw [e0] at hge'
  rw [e32] at hlt'
  exact ⟨hge', hlt'⟩

/-- The precondition, all ones, gives each conjunct at every index: the five float arrays hold real numbers and the
    category ids are in range. -/
theorem pre_decode [Cert.Pre_finite_inputs.Facts]
    (a0 : IVec Cert.Pre_finite_inputs.S30000x64 32) (a1 : FVec Ideal Cert.Pre_finite_inputs.S30000x64 .f32)
    (a2 : IVec Cert.Pre_finite_inputs.S30000x64 32) (a3 : FVec Ideal Cert.Pre_finite_inputs.S50000x128 .f32)
    (a4 : FVec Ideal Cert.Pre_finite_inputs.S32x8 .f32) (a5 : FVec Ideal Cert.Pre_finite_inputs.S128x137 .f32)
    (a6 : FVec Ideal Cert.Pre_finite_inputs.S128 .f32)
    (h : Cert.Pre_finite_inputs.fn (F := Ideal) a0 a1 a2 a3 a4 a5 a6 = fun _ => 1#1) :
    (∀ i, IsReal (a1 i)) ∧ (∀ i, IsReal (a3 i)) ∧ (∀ i, IsReal (a4 i)) ∧ (∀ i, IsReal (a5 i)) ∧ (∀ i, IsReal (a6 i))
      ∧ ∀ i, 0 ≤ (a2 i).toInt ∧ (a2 i).toInt < 32 := by
  -- The precondition's one element, with the chain of operations unfolded down to the six tests joined by "and".
  have h0 := congrFun h ValueIdx.ix0
  dsimp only [Cert.Pre_finite_inputs.fn, Cert.Pre_finite_inputs.fn_part1, andi] at h0
  -- A conjunction that is 1 has both sides 1: peel the tests off from the last one (the ids) to the first.
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  -- Each test is an "and" over all the elements of one array, so each element's compare is 1; the float compare at
  -- index i is `|x i| < +∞` and the integer one is the pair of bounds, both by unfolding the elementwise operations.
  refine ⟨fun i => ?_, fun i => ?_, fun i => ?_, fun i => ?_, fun i => ?_, fun i => ?_⟩
  · exact isReal_of_abs_lt _ (Host.reduce_andi_all _ _ _ _ _ h1 i)
  · exact isReal_of_abs_lt _ (Host.reduce_andi_all _ _ _ _ _ h2 i)
  · exact isReal_of_abs_lt _ (Host.reduce_andi_all _ _ _ _ _ h3 i)
  · exact isReal_of_abs_lt _ (Host.reduce_andi_all _ _ _ _ _ h4 i)
  · exact isReal_of_abs_lt _ (Host.reduce_andi_all _ _ _ _ _ h5 i)
  · exact range_of_cmp _ (Host.reduce_andi_all _ _ _ _ _ h6 i)

end Cert.PoolProj

end
-- ==== Proof.Algebra.lean ====
/-
  The two spellings of one output element agree when every float datum is a real number and every category id is a
  row of the category table: the projection is linear, so pooling before it or after it gives the same numerator, and
  the two denominators are the same clamp of the same total weight.
-/
import proofs.«412016_j5162550690504_3_alg».proof.Proof.Spec

noncomputable section

namespace Cert.PoolProj

open Idealize.ShloMosaic

/-! ## Small facts about the extended reals -/

/-- The coercion of a finite sum of reals is the sum of the coercions. -/
theorem coe_finsum {ι : Type} (A : Finset ι) (g : ι → ℝ) :
    ((∑ i ∈ A, g i : ℝ) : EReal) = ∑ i ∈ A, (g i : EReal) := by
  classical
  induction A using Finset.induction_on with
  | empty => simp
  | insert a A ha ih => rw [Finset.sum_insert ha, Finset.sum_insert ha, EReal.coe_add, ih]

/-- The word of the f32 zero is the extended real zero. -/
theorem ofBits_f32_zero : Ideal.ofBits .f32 0x00000000#32 = 0 := by simp [Ideal.ofBits, Ideal.ieee]

/-! ## The masks and the indicator as real numbers -/

/-- The padding mask as a real number: 1 for a nonzero word, 0 for the zero word. -/
def maskReal (a : BitVec 32) : ℝ := ((IntOp.cmpi .ne a 0#32).toNat : ℝ)

theorem maskR_eq_coe (a : BitVec 32) : maskR a = ((maskReal a : ℝ) : EReal) := rfl

/-- A single bit widened to 32 bits and read signed is the bit itself, so both spellings of the mask agree. -/
theorem maskK_eq_maskR (a : BitVec 32) : maskK a = maskR a := by
  unfold maskK maskR IntOp.cmpi
  cases (a != 0#32) <;> simp

/-! ## A category id inside the table -/

/-- A word whose signed reading is at least 0 and below 32 has that same number as its unsigned reading. -/
theorem toNat_lt_of_toInt {a : BitVec 32} (h : 0 ≤ a.toInt ∧ a.toInt < 32) :
    a.toNat < 32 ∧ a.toInt = (a.toNat : ℤ) := by
  have h1 := BitVec.toInt_eq_toNat_cond a
  have h2 := a.isLt
  split at h1 <;> omega

/-- A nonnegative id is not counted from the table's end. -/
theorem wrap32_of_nonneg {a : BitVec 32} (h : 0 ≤ a.toInt) : wrap32 a = a := by
  have hs : a.slt 0#32 = false := by
    simp [BitVec.slt, h]
  unfold wrap32 IntOp.cmpi Scalar.select
  simp [hs]

/-- For an id inside the table the looked-up row is the id's own number. -/
theorem catRow_val {a : BitVec 32} (h : 0 ≤ a.toInt ∧ a.toInt < 32) : (catRow a).val = a.toNat := by
  obtain ⟨h1, h2⟩ := toNat_lt_of_toInt h
  show min (wrap32 a).toInt.toNat 31 = a.toNat
  rw [wrap32_of_nonneg h.1]
  omega

/-- For an id inside the table the kernel's indicator against a row is 1 exactly at the looked-up row. -/
theorem hotK_eq_ite {a : BitVec 32} (h : 0 ≤ a.toInt ∧ a.toInt < 32) (c : Fin 32) :
    hotK a c = (((if c = catRow a then (1 : ℝ) else 0) : ℝ) : EReal) := by
  obtain ⟨h1, _⟩ := toNat_lt_of_toInt h
  have hrow := catRow_val h
  show ((((BitVec.ofBool (a == BitVec.ofNat 32 c.val)).setWidth 32).toInt : ℝ) : EReal) = _
  by_cases hc : c = catRow a
  · have ha : a = BitVec.ofNat 32 c.val := by
      rw [hc, hrow]; simp
    have hb : (a == BitVec.ofNat 32 c.val) = true := by rw [← ha]; simp
    rw [hb, if_pos hc]; simp
  · have hne : a ≠ BitVec.ofNat 32 c.val := by
      intro ha
      apply hc
      apply Fin.ext
      rw [hrow, ha]
      have := c.isLt
      simp [BitVec.toNat_ofNat]
      omega
    have hb : (a == BitVec.ofNat 32 c.val) = false := by simpa using hne
    rw [hb, if_neg hc]; simp

/-! ## The identity over the reals -/

/-- Linearity of the projection: the pooled features projected once, plus the total weight times the bias, is the
    weighted sum of the projected tokens. Here the weight of a token is any real number. -/
theorem real_pool_proj (s w : Fin 64 → ℝ) (e : Fin 64 → Fin 128 → ℝ) (ce : Fin 32 → Fin 8 → ℝ)
    (κ : Fin 64 → Fin 32) (wt : Fin 128 → ℝ) (wc : Fin 8 → ℝ) (ws b : ℝ) :
    (((∑ f : Fin 128, (∑ t : Fin 64, e t f * w t) * wt f)
        + (∑ j : Fin 8, (∑ c : Fin 32, (∑ t : Fin 64, (if c = κ t then (1 : ℝ) else 0) * w t) * ce c j) * wc j))
        + (∑ t : Fin 64, w t * s t) * ws) + (∑ t : Fin 64, w t) * b
      = ∑ t : Fin 64, (((∑ f : Fin 128, e t f * wt f) + (∑ j : Fin 8, ce (κ t) j * wc j) + s t * ws) + b) * w t := by
  -- the trait features: exchange the two sums
  have h1 : (∑ f : Fin 128, (∑ t : Fin 64, e t f * w t) * wt f)
      = ∑ t : Fin 64, (∑ f : Fin 128, e t f * wt f) * w t := by
    simp only [Finset.sum_mul]
    rw [Finset.sum_comm]
    exact Finset.sum_congr rfl fun t _ => Finset.sum_congr rfl fun f _ => by ring
  -- the category features: the indicator picks the looked-up row, then exchange the sums
  have h2a : ∀ j : Fin 8, (∑ c : Fin 32, (∑ t : Fin 64, (if c = κ t then (1 : ℝ) else 0) * w t) * ce c j)
      = ∑ t : Fin 64, ce (κ t) j * w t := by
    intro j
    simp only [Finset.sum_mul]
    rw [Finset.sum_comm]
    refine Finset.sum_congr rfl fun t _ => ?_
    have : ∀ c : Fin 32, (if c = κ t then (1 : ℝ) else 0) * w t * ce c j
        = if c = κ t then ce (κ t) j * w t else 0 := by
      intro c
      by_cases hc : c = κ t
      · rw [if_pos hc, if_pos hc, hc]; ring
      · rw [if_neg hc, if_neg hc]; ring
    simp only [this]
    rw [Finset.sum_ite_eq']
    simp
  have h2 : (∑ j : Fin 8, (∑ c : Fin 32, (∑ t : Fin 64, (if c = κ t then (1 : ℝ) else 0) * w t) * ce c j) * wc j)
      = ∑ t : Fin 64, (∑ j : Fin 8, ce (κ t) j * wc j) * w t := by
    simp only [h2a]
    simp only [Finset.sum_mul]
    rw [Finset.sum_comm]
    exact Finset.sum_congr rfl fun t _ => Finset.sum_congr rfl fun j _ => by ring
  -- the score feature and the bias
  have h3 : (∑ t : Fin 64, w t * s t) * ws = ∑ t : Fin 64, s t * ws * w t := by
    rw [Finset.sum_mul]
    exact Finset.sum_congr rfl fun t _ => by ring
  have h4 : (∑ t : Fin 64, w t) * b = ∑ t : Fin 64, b * w t := by
    rw [Finset.sum_mul]
    exact Finset.sum_congr rfl fun t _ => by ring
  rw [h1, h2, h3, h4]
  simp only [add_mul, Finset.sum_add_distrib]

/-! ## The two elements -/

namespace Row

/-- The two denominators' total weights agree on every row: the masks agree word by word. -/
theorem sumWK_eq_sumWR (r : Row) : r.sumWK = r.sumWR := by
  unfold sumWK sumWR wK wR
  rw [ofBits_f32_zero, zero_add]
  simp only [maskK_eq_maskR]

/-- The two numerators agree when every float datum is real and every category id is a row of the table. -/
theorem numK_eq_numR (r : Row) (hs : ∀ t, IsReal (r.s t)) (he : ∀ t f, IsReal (r.e t f))
    (hce : ∀ c j, IsReal (r.ce c j)) (hwt : ∀ f, IsReal (r.wt f)) (hwc : ∀ j, IsReal (r.wc j))
    (hws : IsReal r.ws) (hb : IsReal r.b) (hcat : ∀ t, 0 ≤ (r.cat t).toInt ∧ (r.cat t).toInt < 32) :
    r.numK = r.numR := by
  choose s hs using hs
  choose e he using he
  choose ce hce using hce
  choose wt hwt using hwt
  choose wc hwc using hwc
  obtain ⟨ws, hws⟩ := hws
  obtain ⟨b, hb⟩ := hb
  have hhot : ∀ t c, hotK (r.cat t) c = (((if c = catRow (r.cat t) then (1 : ℝ) else 0) : ℝ) : EReal) :=
    fun t c => hotK_eq_ite (hcat t) c
  unfold numK numR poolT poolC agg poolS sumWK projR wK wR
  rw [ofBits_f32_zero, zero_add]
  simp only [hs, he, hce, hwt, hwc, hws, hb, hhot, maskK_eq_maskR, maskR_eq_coe]
  simp only [← EReal.coe_mul, ← EReal.coe_add, ← coe_finsum]
  exact congrArg Real.toEReal
    (real_pool_proj s (fun t => s t * maskReal (r.tok t)) e ce (fun t => catRow (r.cat t)) wt wc ws b)

end Row

/-- Pool-then-project equals project-then-pool, element by element. -/
theorem Row.outK_eq_outR (r : Row) (hs : ∀ t, IsReal (r.s t)) (he : ∀ t f, IsReal (r.e t f))
    (hce : ∀ c j, IsReal (r.ce c j)) (hwt : ∀ f, IsReal (r.wt f)) (hwc : ∀ j, IsReal (r.wc j))
    (hws : IsReal r.ws) (hb : IsReal r.b) (hcat : ∀ t, 0 ≤ (r.cat t).toInt ∧ (r.cat t).toInt < 32) :
    r.outK = r.outR := by
  unfold Row.outK Row.outR
  rw [Row.numK_eq_numR r hs he hce hwt hwc hws hb hcat, Row.sumWK_eq_sumWR r]

end Cert.PoolProj

end
-- ==== Proof.RefRead.lean ====
/-
  The reference's result read at an index: element `(n, d)` of its last stage is the reference's spelling of the
  pooled projection (`Row.outR`) of the row read off the argument arrays, with the looked-up trait rows kept as the
  lookup's own stage; and that stage holds real numbers when the trait table does.

  The stages are read from the last one inwards. The quotient's two operands are the numerator's sum over the 64 tokens
  and the clamped total weight. A token's weight is its score times the mask. A token's projection is a sum over the 137
  positions of the joined row, which is cut as 128 + 8 + 1: below 128 the joined row is the trait lookup, from 128 to
  135 it is the category lookup, and at 136 it is the score. The category lookup reads the table at the row its start
  index names (the id with a negative one counted from the table's end, read signed and clamped into the 32 rows) and at
  the column of the result's last coordinate. The trait lookup is not opened: each of its elements is some element of the
  trait table, which is all the second statement needs.
-/
import proofs.«412016_j5162550690504_3_alg».proof.Proof.Spec
import proofs.«412016_j5162550690504_3_alg».proof.Proof.Gen.ReferenceIdeal.Read

noncomputable section

namespace Cert.PoolProj

open Idealize.ShloMosaic Idealize.ShloMosaic.ValueIdx Cert.ReferenceIdeal Cert.ReferenceIdeal.Gen

/-- A token's weight as the reference forms it: the score times the mask, at the one position of the unit axis. -/
private theorem weight_apply (x0 : (⟨S30000x64, .i32⟩ : BufTy).Contents (Elt Ideal)) (x1 : (⟨S30000x64, .f32⟩ : BufTy).Contents (Elt Ideal))
    (n : Fin 30000) (t : Fin 64) (c : Fin 1) :
    Read.val_main_v24 (F := Ideal) x0 x1 (ix3 n t c) = x1 (ix2 n t) * maskR (x0 (ix2 n t)) := by
  rw [Read.val_main_v24_apply, Read.val_main_v17_apply, Read.val_main_v23_apply, Read.val_main_v2_apply,
    Read.val_main_v1_apply, Read.val_main_v0_apply, Read.val_main_c_apply]
  have e1 : Read.idx_main_v17 (ix3 n t c) = ix2 n t :=
    funext fun a => Fin.ext (by match a with | ⟨0, _⟩ => rfl | ⟨1, _⟩ => rfl)
  have e2 : Read.idx_main_v23 (ix3 n t c) = ix2 n t :=
    funext fun a => Fin.ext (by match a with | ⟨0, _⟩ => rfl | ⟨1, _⟩ => rfl)
  rw [e1, e2]
  rfl

/-- The category id the reference's lookup starts from: the id with a negative one counted from the table's end. -/
private theorem wrapped_apply (x2 : (⟨S30000x64, .i32⟩ : BufTy).Contents (Elt Ideal)) (n : Fin 30000) (t : Fin 64) (c : Fin 1) :
    Read.val_main_v15 (F := Ideal) x2 (ix3 n t c) = wrap32 (x2 (ix2 n t)) := by
  rw [Read.val_main_v15_apply, Read.val_main_v14_apply, Read.val_main_v11_apply, Read.val_main_v13_apply,
    Read.val_main_v10_apply, Read.val_main_v12_apply, Read.val_main_c_2_apply, Read.val_main_c_3_apply]
  have e1 : Read.idx_main_v15 (ix3 n t c) = ix2 n t :=
    funext fun a => Fin.ext (by match a with | ⟨0, _⟩ => rfl | ⟨1, _⟩ => rfl)
  rw [e1]
  rfl

local notation "dCat" => gather_S32x8_S30000x64x1_S30000x64x8_2_0_n_n_0_2_18

/-- The row the category lookup reads. The table's row axis is collapsed, so it has no offset; its start is the one
    entry of the start index, the wrapped id read signed and clamped into the 32 rows. -/
private theorem cat_row (x2 : (⟨S30000x64, .i32⟩ : BufTy).Contents (Elt Ideal)) (n : Fin 30000) (t : Fin 64) (j : Fin 8) :
    (GatherDims.operandIdx dCat (ix3 n t j) (Read.val_main_v15 (F := Ideal) x2) 0).val
      = (catRow (x2 (ix2 n t))).val := by
  show GatherDims.start dCat (ix3 n t j) (Read.val_main_v15 (F := Ideal) x2) 0 + GatherDims.batchCoord dCat (ix3 n t j) 0
    + GatherDims.offCoord dCat (ix3 n t j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ GatherDims.startIndexMap dCat from List.mem_singleton.mpr rfl)]
  have hsi : GatherDims.siIdx dCat (ix3 n t j) ⟨List.idxOf (0 : Fin 2) (GatherDims.startIndexMap dCat),
      List.idxOf_lt_length_iff.2 (List.mem_singleton.mpr rfl)⟩ = ix3 n t (0 : Fin 1) := by
    funext b; refine Fin.ext ?_
    match b with
    | ⟨0, _⟩ => rfl
    | ⟨1, _⟩ => rfl
    | ⟨2, _⟩ => rfl
  rw [hsi, wrapped_apply]
  rfl

/-- The column the category lookup reads. The table's column axis is its one offset axis, which the start index does
    not name: the column is the result's last coordinate. -/
private theorem cat_col (x2 : (⟨S30000x64, .i32⟩ : BufTy).Contents (Elt Ideal)) (n : Fin 30000) (t : Fin 64) (j : Fin 8) :
    (GatherDims.operandIdx dCat (ix3 n t j) (Read.val_main_v15 (F := Ideal) x2) 1).val = j.val := by
  show GatherDims.start dCat (ix3 n t j) (Read.val_main_v15 (F := Ideal) x2) 1 + GatherDims.batchCoord dCat (ix3 n t j) 1
    + GatherDims.offCoord dCat (ix3 n t j) 1 = _
  rw [GatherDims.batchCoord_eq_zero _ _ _ List.not_mem_nil]
  unfold GatherDims.start
  rw [dif_neg (show ¬(1 : Fin 2) ∈ GatherDims.startIndexMap dCat by decide)]
  unfold GatherDims.offCoord
  rw [dif_pos (show (1 : Fin 2) ∈ GatherDims.sKept dCat by decide), Nat.add_zero, Nat.zero_add]
  rfl

/-- The category lookup at `(n, t, j)`: row `catRow` of the id, column `j` of the table. -/
private theorem cat_apply (x2 : (⟨S30000x64, .i32⟩ : BufTy).Contents (Elt Ideal)) (x4 : (⟨S32x8, .f32⟩ : BufTy).Contents (Elt Ideal))
    (n : Fin 30000) (t : Fin 64) (j : Fin 8) :
    Read.val_main_v16 (F := Ideal) x2 x4 (ix3 n t j) = x4 (ix2 (catRow (x2 (ix2 n t))) j) := by
  unfold Read.val_main_v16 Host.gather
  refine congrArg x4 (funext fun a => Fin.ext ?_)
  match a with
  | ⟨0, _⟩ => exact cat_row x2 n t j
  | ⟨1, _⟩ => exact cat_col x2 n t j

/-- The joined row at a position below 128 is the trait lookup there. -/
private theorem row_trait (x0 : (⟨S30000x64, .i32⟩ : BufTy).Contents (Elt Ideal)) (x1 : (⟨S30000x64, .f32⟩ : BufTy).Contents (Elt Ideal))
    (x2 : (⟨S30000x64, .i32⟩ : BufTy).Contents (Elt Ideal)) (x3 : (⟨S50000x128, .f32⟩ : BufTy).Contents (Elt Ideal))
    (x4 : (⟨S32x8, .f32⟩ : BufTy).Contents (Elt Ideal)) (n : Fin 30000) (t : Fin 64) (k : Fin 137) (f : Fin 128)
    (hk : k.val = f.val) :
    Read.val_main_v18 (F := Ideal) x0 x1 x2 x3 x4 (ix3 n t k) = Read.val_main_v9 (F := Ideal) x0 x3 (ix3 n t f) := by
  unfold Read.val_main_v18
  refine concatenate_apply_piece (t := S30000x64x137) 2 _ _ (ix3 n t k) 0 ?_ S30000x64x128 _ ?_ rfl 0 ?_ (ix3 n t f)
    (fun b hb => ?_) ?_
  · show 0 < 3
    decide
  · rfl
  · rfl
  · match b with
    | ⟨0, _⟩ => rfl
    | ⟨1, _⟩ => rfl
    | ⟨2, _⟩ => exact absurd rfl hb
  · show 0 + f.val = k.val
    omega

/-- The joined row at a position `128 + j`, `j < 8`, is the category lookup at `j`. -/
private theorem row_cat (x0 : (⟨S30000x64, .i32⟩ : BufTy).Contents (Elt Ideal)) (x1 : (⟨S30000x64, .f32⟩ : BufTy).Contents (Elt Ideal))
    (x2 : (⟨S30000x64, .i32⟩ : BufTy).Contents (Elt Ideal)) (x3 : (⟨S50000x128, .f32⟩ : BufTy).Contents (Elt Ideal))
    (x4 : (⟨S32x8, .f32⟩ : BufTy).Contents (Elt Ideal)) (n : Fin 30000) (t : Fin 64) (k : Fin 137) (j : Fin 8)
    (hk : k.val = 128 + j.val) :
    Read.val_main_v18 (F := Ideal) x0 x1 x2 x3 x4 (ix3 n t k) = Read.val_main_v16 (F := Ideal) x2 x4 (ix3 n t j) := by
  unfold Read.val_main_v18
  refine concatenate_apply_piece (t := S30000x64x137) 2 _ _ (ix3 n t k) 1 ?_ S30000x64x8 _ ?_ rfl 128 ?_ (ix3 n t j)
    (fun b hb => ?_) ?_
  · show 1 < 3
    decide
  · rfl
  · rfl
  · match b with
    | ⟨0, _⟩ => rfl
    | ⟨1, _⟩ => rfl
    | ⟨2, _⟩ => exact absurd rfl hb
  · show 128 + j.val = k.val
    omega

/-- The joined row at its last position, 136, is the score. -/
private theorem row_score (x0 : (⟨S30000x64, .i32⟩ : BufTy).Contents (Elt Ideal)) (x1 : (⟨S30000x64, .f32⟩ : BufTy).Contents (Elt Ideal))
    (x2 : (⟨S30000x64, .i32⟩ : BufTy).Contents (Elt Ideal)) (x3 : (⟨S50000x128, .f32⟩ : BufTy).Contents (Elt Ideal))
    (x4 : (⟨S32x8, .f32⟩ : BufTy).Contents (Elt Ideal)) (n : Fin 30000) (t : Fin 64) (k : Fin 137)
    (hk : k.val = 136) :
    Read.val_main_v18 (F := Ideal) x0 x1 x2 x3 x4 (ix3 n t k) = x1 (ix2 n t) := by
  have e : Read.val_main_v18 (F := Ideal) x0 x1 x2 x3 x4 (ix3 n t k)
      = Read.val_main_v17 (F := Ideal) x1 (ix3 n t (0 : Fin 1)) := by
    unfold Read.val_main_v18
    refine concatenate_apply_piece (t := S30000x64x137) 2 _ _ (ix3 n t k) 2 ?_ S30000x64x1 _ ?_ rfl 136 ?_
      (ix3 n t (0 : Fin 1)) (fun b hb => ?_) ?_
    · show 2 < 3
      decide
    · rfl
    · rfl
    · match b with
      | ⟨0, _⟩ => rfl
      | ⟨1, _⟩ => rfl
      | ⟨2, _⟩ => exact absurd rfl hb
    · show 136 + 0 = k.val
      omega
  rw [e, Read.val_main_v17_apply]
  exact congrArg x1 (funext fun a => Fin.ext (by match a with | ⟨0, _⟩ => rfl | ⟨1, _⟩ => rfl))

/-- One token's projection before the bias: the joined row against row `d` of the matrix. The sum over the 137
    positions is cut as 128 + 8 + 1: the trait features, the category features, the score. -/
private theorem proj_apply (x0 : (⟨S30000x64, .i32⟩ : BufTy).Contents (Elt Ideal)) (x1 : (⟨S30000x64, .f32⟩ : BufTy).Contents (Elt Ideal))
    (x2 : (⟨S30000x64, .i32⟩ : BufTy).Contents (Elt Ideal)) (x3 : (⟨S50000x128, .f32⟩ : BufTy).Contents (Elt Ideal))
    (x4 : (⟨S32x8, .f32⟩ : BufTy).Contents (Elt Ideal)) (x5 : (⟨S128x137, .f32⟩ : BufTy).Contents (Elt Ideal))
    (n : Fin 30000) (t : Fin 64) (d : Fin 128) :
    Read.val_main_v19 (F := Ideal) x0 x1 x2 x3 x4 x5 (ix3 n t d)
      = (∑ f : Fin 128, Read.val_main_v9 (F := Ideal) x0 x3 (ix3 n t f) * x5 (ix2 d (⟨f.val, by omega⟩ : Fin 137)))
        + (∑ j : Fin 8, x4 (ix2 (catRow (x2 (ix2 n t))) j) * x5 (ix2 d (⟨128 + j.val, by omega⟩ : Fin 137)))
        + x1 (ix2 n t) * x5 (ix2 d (⟨136, by omega⟩ : Fin 137)) := by
  rw [Read.val_main_v19_apply]
  have el : ∀ k : Fin 137, Read.lidx_main_v19 (ix3 n t d) k = ix3 n t k := fun k =>
    funext fun a => Fin.ext (by match a with | ⟨0, _⟩ => rfl | ⟨1, _⟩ => rfl | ⟨2, _⟩ => rfl)
  have er : ∀ k : Fin 137, Read.ridx_main_v19 (ix3 n t d) k = ix2 d k := fun k =>
    funext fun a => Fin.ext (by match a with | ⟨0, _⟩ => rfl | ⟨1, _⟩ => rfl)
  simp only [el, er]
  refine (Fin.sum_univ_castSucc (n := 136) _).trans ?_
  refine congrArg₂ (· + ·) ((Fin.sum_univ_add (a := 128) (b := 8) _).trans
    (congrArg₂ (· + ·) (Finset.sum_congr rfl fun f _ => ?_) (Finset.sum_congr rfl fun j _ => ?_))) ?_
  · rw [row_trait x0 x1 x2 x3 x4 n t (Fin.castSucc (Fin.castAdd 8 f)) f rfl]
    rfl
  · rw [row_cat x0 x1 x2 x3 x4 n t (Fin.castSucc (Fin.natAdd 128 j)) j rfl, cat_apply]
    rfl
  · rw [row_score x0 x1 x2 x3 x4 n t (Fin.last 136) rfl]
    rfl

/-- The reference's total weight of row `n`, from the sum's initial zero. -/
private theorem den_apply (x0 : (⟨S30000x64, .i32⟩ : BufTy).Contents (Elt Ideal)) (x1 : (⟨S30000x64, .f32⟩ : BufTy).Contents (Elt Ideal))
    (x2 : (⟨S30000x64, .i32⟩ : BufTy).Contents (Elt Ideal)) (te : (⟨3, ![30000, 64, 128]⟩ : Shape).Idx → EReal)
    (x4 : (⟨S32x8, .f32⟩ : BufTy).Contents (Elt Ideal)) (x5 : (⟨S128x137, .f32⟩ : BufTy).Contents (Elt Ideal))
    (x6 : (⟨S128, .f32⟩ : BufTy).Contents (Elt Ideal)) (n : Fin 30000) (d : Fin 128) (c : Fin 1) :
    Read.val_main_v28 (F := Ideal) x0 x1 (ix2 n c) = (rowOf x0 x1 x2 te x4 x5 x6 n d).sumWR := by
  rw [Read.val_main_v28_apply, Read.val_main_cst_4_apply]
  show _ = Ideal.ofBits .f32 0x00000000#32 + ∑ t : Fin 64, x1 (ix2 n t) * maskR (x0 (ix2 n t))
  refine congrArg₂ (· + ·) rfl (Finset.sum_congr rfl fun t _ => ?_)
  have e : Read.idx_main_v28 (ix2 n c) t = ix3 n t c :=
    funext fun a => Fin.ext (by match a with | ⟨0, _⟩ => rfl | ⟨1, _⟩ => rfl | ⟨2, _⟩ => rfl)
  rw [e, weight_apply]

/-- The reference's numerator at `(n, d)`: each token's projection plus the bias, times the token's weight, summed from
    the sum's initial zero. -/
private theorem num_apply (x0 : (⟨S30000x64, .i32⟩ : BufTy).Contents (Elt Ideal)) (x1 : (⟨S30000x64, .f32⟩ : BufTy).Contents (Elt Ideal))
    (x2 : (⟨S30000x64, .i32⟩ : BufTy).Contents (Elt Ideal)) (x3 : (⟨S50000x128, .f32⟩ : BufTy).Contents (Elt Ideal))
    (x4 : (⟨S32x8, .f32⟩ : BufTy).Contents (Elt Ideal)) (x5 : (⟨S128x137, .f32⟩ : BufTy).Contents (Elt Ideal))
    (x6 : (⟨S128, .f32⟩ : BufTy).Contents (Elt Ideal)) (n : Fin 30000) (d : Fin 128) :
    Read.val_main_v27 (F := Ideal) x0 x1 x2 x3 x4 x5 x6 (ix2 n d)
      = (rowOf x0 x1 x2 (Read.val_main_v9 (F := Ideal) x0 x3) x4 x5 x6 n d).numR := by
  rw [Read.val_main_v27_apply, Read.val_main_cst_apply]
  show _ = Ideal.ofBits .f32 0x00000000#32 + ∑ t : Fin 64,
    (rowOf x0 x1 x2 (Read.val_main_v9 (F := Ideal) x0 x3) x4 x5 x6 n d).projR t * (x1 (ix2 n t) * maskR (x0 (ix2 n t)))
  refine congrArg₂ (· + ·) rfl (Finset.sum_congr rfl fun t _ => ?_)
  have e : Read.idx_main_v27 (ix2 n d) t = ix3 n t d :=
    funext fun a => Fin.ext (by match a with | ⟨0, _⟩ => rfl | ⟨1, _⟩ => rfl | ⟨2, _⟩ => rfl)
  have e25 : Read.idx_main_v25 (ix3 n t d) = ix3 n t (0 : Fin 1) :=
    funext fun a => Fin.ext (by match a with | ⟨0, _⟩ => rfl | ⟨1, _⟩ => rfl | ⟨2, _⟩ => rfl)
  have e20 : Read.idx_main_v20 (Read.idx_main_v21 (ix3 n t d)) = ix1 d :=
    funext fun a => Fin.ext (by match a with | ⟨0, _⟩ => rfl)
  rw [e, Read.val_main_v26_apply, Read.val_main_v22_apply, Read.val_main_v25_apply, Read.val_main_v21_apply,
    Read.val_main_v20_apply, e25, e20, weight_apply, proj_apply]
  rfl

/-- Every element of the trait lookup is an element of the trait table. -/
theorem lookup_isReal (x0 : (⟨S30000x64, .i32⟩ : BufTy).Contents (Elt Ideal)) (x3 : (⟨S50000x128, .f32⟩ : BufTy).Contents (Elt Ideal))
    (h : ∀ i, IsReal (x3 i)) (i : S30000x64x128.Idx) : IsReal (Read.val_main_v9 (F := Ideal) x0 x3 i) :=
  -- a lookup's element is the table's at the index the lookup computes, whatever that index is
  h _

/-- The reference's result at `(n, d)`. -/
theorem ref_apply (x0 : (⟨S30000x64, .i32⟩ : BufTy).Contents (Elt Ideal)) (x1 : (⟨S30000x64, .f32⟩ : BufTy).Contents (Elt Ideal))
    (x2 : (⟨S30000x64, .i32⟩ : BufTy).Contents (Elt Ideal)) (x3 : (⟨S50000x128, .f32⟩ : BufTy).Contents (Elt Ideal))
    (x4 : (⟨S32x8, .f32⟩ : BufTy).Contents (Elt Ideal)) (x5 : (⟨S128x137, .f32⟩ : BufTy).Contents (Elt Ideal))
    (x6 : (⟨S128, .f32⟩ : BufTy).Contents (Elt Ideal)) (n : Fin 30000) (d : Fin 128) :
    Read.val_main_v32 (F := Ideal) x0 x1 x2 x3 x4 x5 x6 (ix2 n d)
      = (rowOf x0 x1 x2 (Read.val_main_v9 (F := Ideal) x0 x3) x4 x5 x6 n d).outR := by
  -- the quotient of the numerator at `(n, d)` by the clamped total weight of row `n`
  have e31 : Read.idx_main_v31 (ix2 n d) = ix2 n (0 : Fin 1) :=
    funext fun a => Fin.ext (by match a with | ⟨0, _⟩ => rfl | ⟨1, _⟩ => rfl)
  rw [Read.val_main_v32_apply, Read.val_main_v31_apply, Read.val_main_v30_apply, Read.val_main_v29_apply,
    Read.val_main_cst_5_apply, e31, num_apply,
    den_apply x0 x1 x2 (Read.val_main_v9 (F := Ideal) x0 x3) x4 x5 x6 n d (0 : Fin 1)]
  rfl

end Cert.PoolProj

end
-- ==== Proof.KernelPay.lean ====
/-
  The value the kernel body stores, read at an index of its [600, 128] block.

  At row `p` and feature `q` of a block the body's arithmetic is the kernel's spelling of the pooled projection
  (`Row.outK`) of the row made of row `p` of the token, score and category blocks and of the looked-up trait block, the
  whole category table, column `q` of the two transposed weight blocks, and entry `q` of the score weights and the bias.
  Each lane reduction is a finite sum over the 64 tokens, each matrix product a finite sum over its contracted axis,
  and the shape casts and broadcasts only re-index.
-/
import proofs.«412016_j5162550690504_3_alg».proof.Proof.Spec
import proofs.«412016_j5162550690504_3_alg».proof.Proof.Gen.KernelIdeal.Skeleton
import Idealize.ShloMosaic.PureOps.Ideal.Laws
import Idealize.ShloMosaic.Lib.Pipeline.Value
import Idealize.ShloMosaic.Lib.ValueIdx

noncomputable section

namespace Cert.PoolProj

open Idealize.ShloMosaic Idealize.ShloMosaic.ValueIdx Cert.KernelIdeal Cert.KernelIdeal.Gen

/-! ## Re-indexing steps -/

/-- A [600, 64] value viewed as [600, 64, 1] and repeated along a new last axis reads, at `(p, t, l)`, the value at `(p, t)`. -/
theorem spread_last {α : Type} {L : Nat} (w : S600x64.Idx → α) (hc : S600x64.ShapeCasts S600x64x1)
    (hb : S600x64x1.Broadcasts (⟨3, ![600, 64, L]⟩ : Shape)) (p : Fin 600) (t : Fin 64) (l : Fin L) :
    broadcastTo (⟨3, ![600, 64, L]⟩ : Shape) (shapeCast S600x64x1 w hc) hb (ix3 p t l) = w (ix2 p t) := by
  refine (broadcastTo_apply _ hb (ix3 p t l) (ix3 p t (0 : Fin 1)) (fun a => ?_)).trans ?_
  · match a with
    | ⟨0, _⟩ => rfl
    | ⟨1, _⟩ => rfl
    | ⟨2, _⟩ => rfl
  · refine shapeCast_apply w hc (ix3 p t (0 : Fin 1)) (ix2 p t) ?_
    rw [Shape.rowMajor_val_two, Shape.rowMajor_val_three]
    show p.val * 64 + t.val = (p.val * 64 + t.val) * 1 + 0
    omega

/-- A length-600 column viewed as [600, 1] and repeated along the 128 features reads, at `(p, q)`, entry `p`. -/
theorem spread_col {α : Type} (v : S600.Idx → α) (hc : S600.ShapeCasts S600x1) (hb : S600x1.Broadcasts S600x128)
    (p : Fin 600) (q : Fin 128) : broadcastTo S600x128 (shapeCast S600x1 v hc) hb (ix2 p q) = v (ix1 p) := by
  refine (broadcastTo_apply _ hb (ix2 p q) (ix2 p (0 : Fin 1)) (fun a => ?_)).trans ?_
  · match a with
    | ⟨0, _⟩ => rfl
    | ⟨1, _⟩ => rfl
  · refine shapeCast_apply v hc (ix2 p (0 : Fin 1)) (ix1 p) ?_
    rw [Shape.rowMajor_val_one, Shape.rowMajor_val_two]
    show p.val = p.val * 1 + 0
    omega

/-- A length-128 row viewed as [1, 128] and repeated along the 600 rows reads, at `(p, q)`, entry `q`. -/
theorem spread_row {α : Type} (v : S128.Idx → α) (hc : S128.ShapeCasts S1x128) (hb : S1x128.Broadcasts S600x128)
    (p : Fin 600) (q : Fin 128) : broadcastTo S600x128 (shapeCast S1x128 v hc) hb (ix2 p q) = v (ix1 q) := by
  refine (broadcastTo_apply _ hb (ix2 p q) (ix2 (0 : Fin 1) q) (fun a => ?_)).trans ?_
  · match a with
    | ⟨0, _⟩ => rfl
    | ⟨1, _⟩ => rfl
  · refine shapeCast_apply v hc (ix2 (0 : Fin 1) q) (ix1 q) ?_
    rw [Shape.rowMajor_val_one, Shape.rowMajor_val_two]
    show q.val = 0 * 128 + q.val
    omega

/-! ## The sums over the 64 tokens -/

/-- The lane sum of a [600, 64] value over its tokens. -/
theorem tokSum2 (v : FVec Ideal S600x64 .f32) (p : Fin 600) :
    multiReduction .add [1] S600 v 0x00000000#32 reduces_S600x64_S600 (.inl rfl) rfl (ix1 p) = ∑ t : Fin 64, v (ix2 p t) := by
  refine (Ideal.multiReduction_add_single v 0x00000000#32 reduces_S600x64_S600 (.inl rfl) rfl (ix1 p)).trans ?_
  exact Finset.sum_congr rfl fun k _ => congrArg v (funext fun a => Fin.ext (by
    match a with
    | ⟨0, _⟩ => rfl
    | ⟨1, _⟩ => rfl))

/-- The sum of a [600, 64, 128] value over its tokens, feature by feature. -/
theorem tokSum3t (v : FVec Ideal S600x64x128 .f32) (p : Fin 600) (f : Fin 128) :
    multiReduction .add [1] S600x128 v 0x00000000#32 reduces_S600x64x128_S600x128 (.inl rfl) rfl (ix2 p f)
      = ∑ t : Fin 64, v (ix3 p t f) := by
  refine (Ideal.multiReduction_add_single v 0x00000000#32 reduces_S600x64x128_S600x128 (.inl rfl) rfl (ix2 p f)).trans ?_
  exact Finset.sum_congr rfl fun k _ => congrArg v (funext fun a => Fin.ext (by
    match a with
    | ⟨0, _⟩ => rfl
    | ⟨1, _⟩ => rfl
    | ⟨2, _⟩ => rfl))

/-- The sum of a [600, 64, 32] value over its tokens, category by category. -/
theorem tokSum3c (v : FVec Ideal S600x64x32 .f32) (p : Fin 600) (c : Fin 32) :
    multiReduction .add [1] S600x32 v 0x00000000#32 reduces_S600x64x32_S600x32 (.inl rfl) rfl (ix2 p c)
      = ∑ t : Fin 64, v (ix3 p t c) := by
  refine (Ideal.multiReduction_add_single v 0x00000000#32 reduces_S600x64x32_S600x32 (.inl rfl) rfl (ix2 p c)).trans ?_
  exact Finset.sum_congr rfl fun k _ => congrArg v (funext fun a => Fin.ext (by
    match a with
    | ⟨0, _⟩ => rfl
    | ⟨1, _⟩ => rfl
    | ⟨2, _⟩ => rfl))

/-! ## A matrix product into a zero accumulator -/

/-- Rows-by-columns product `[M, K] · [K, N]` read at `(p, q)`: the sum over the contracted axis. -/
theorem matProd_apply {M K N : Nat} (a : FVec Ideal ⟨2, ![M, K]⟩ .f32) (b : FVec Ideal ⟨2, ![K, N]⟩ .f32) (p : Fin M) (q : Fin N) :
    FloatOps.matmul (DotDims.plain M K N) none a b (constant (⟨2, ![M, N]⟩ : Shape) .f32 0x00000000#32) (ix2 p q)
      = ∑ k : Fin K, a (ix2 p k) * b (ix2 k q) := by
  refine (Ideal.matmul_constant_zero_apply (DotDims.plain M K N) none a b (ix2 p q)).trans ?_
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact hk)
  have er : (DotDims.plain M K N).rhsIdx (ix2 p q) ((contrEquiv1 (DotDims.plain M K N) K rfl rfl).symm k) = ix2 k q :=
    funext fun a => Fin.ext (by
      match a with
      | ⟨0, _⟩ => exact hk
      | ⟨1, _⟩ => rfl)
  rw [el, er]

/-! ## The body's pieces at an index -/

section Pieces

variable (x0 : Vec Ideal S600x64 .i32) (x1 : Vec Ideal S600x64 .f32) (x2 : Vec Ideal S600x64 .i32)
  (x3 : Vec Ideal S600x64x128 .f32) (x4 : Vec Ideal S32x8 .f32)

/-- A token's weight: its score times the padding mask. -/
theorem wgt_apply (p : Fin 600) (t : Fin 64) :
    k0_pay2 x0 x1 (ix2 p t) = x1 (ix2 p t) * maskK (x0 (ix2 p t)) := rfl

/-- The row's total weight. -/
theorem sumW_apply (p : Fin 600) : k0_pay6 x0 x1 (ix1 p) = ∑ t : Fin 64, k0_pay2 x0 x1 (ix2 p t) := by
  unfold k0_pay6
  exact tokSum2 (k0_pay2 x0 x1) p

/-- The clamped total weight. -/
theorem den_apply (p : Fin 600) :
    k0_pay7 x0 x1 (ix1 p) = max (k0_pay6 x0 x1 (ix1 p)) (Ideal.ofBits .f32 epsW) := rfl

/-- The pooled scores. -/
theorem poolS_apply (p : Fin 600) :
    k0_pay5 x0 x1 (ix1 p) = ∑ t : Fin 64, k0_pay2 x0 x1 (ix2 p t) * x1 (ix2 p t) := by
  unfold k0_pay5
  exact tokSum2 (mulf (k0_pay2 x0 x1) x1) p

/-- The pooled trait rows. -/
theorem poolT_apply (p : Fin 600) (f : Fin 128) :
    k0_pay3 x0 x1 x3 (ix2 p f) = ∑ t : Fin 64, x3 (ix3 p t f) * k0_pay2 x0 x1 (ix2 p t) := by
  unfold k0_pay3
  refine (tokSum3t _ p f).trans (Finset.sum_congr rfl fun t _ => ?_)
  show shapeCast S600x64x128 x3 shapeCasts_S600x64x128_S600x64x128 (ix3 p t f)
      * broadcastTo S600x64x128 (shapeCast S600x64x1 (k0_pay2 x0 x1) shapeCasts_S600x64_S600x64x1) broadcasts_S600x64x1_S600x64x128 (ix3 p t f) = _
  rw [shapeCast_self, spread_last (k0_pay2 x0 x1) shapeCasts_S600x64_S600x64x1 broadcasts_S600x64x1_S600x64x128 p t f]

/-- The weight a row gives each category: the category indicator times the weight, summed over the tokens. -/
theorem agg_apply (p : Fin 600) (c : Fin 32) :
    multiReduction .add [1] S600x32
        (mulf (sitofp .f32 (extui 32 (cmpi .eq (broadcastTo S600x64x32 (shapeCast S600x64x1 x2 shapeCasts_S600x64_S600x64x1) broadcasts_S600x64x1_S600x64x32)
            (iota .tc S600x64x32 32 [2] iota_S600x64x32_d2_w32)) natLt_1_32) : FVec Ideal S600x64x32 .f32)
          (broadcastTo S600x64x32 (shapeCast S600x64x1 (k0_pay2 x0 x1) shapeCasts_S600x64_S600x64x1) broadcasts_S600x64x1_S600x64x32))
        0x00000000#32 reduces_S600x64x32_S600x32 (.inl rfl) rfl (ix2 p c)
      = ∑ t : Fin 64, hotK (x2 (ix2 p t)) c * k0_pay2 x0 x1 (ix2 p t) := by
  refine (tokSum3c _ p c).trans (Finset.sum_congr rfl fun t _ => ?_)
  show ((((IntOp.cmpi .eq (broadcastTo S600x64x32 (shapeCast S600x64x1 x2 shapeCasts_S600x64_S600x64x1) broadcasts_S600x64x1_S600x64x32 (ix3 p t c))
        (iota .tc S600x64x32 32 [2] iota_S600x64x32_d2_w32 (ix3 p t c))).setWidth 32).toInt : ℝ) : EReal)
      * broadcastTo S600x64x32 (shapeCast S600x64x1 (k0_pay2 x0 x1) shapeCasts_S600x64_S600x64x1) broadcasts_S600x64x1_S600x64x32 (ix3 p t c) = _
  rw [spread_last x2 shapeCasts_S600x64_S600x64x1 broadcasts_S600x64x1_S600x64x32 p t c,
    spread_last (k0_pay2 x0 x1) shapeCasts_S600x64_S600x64x1 broadcasts_S600x64x1_S600x64x32 p t c,
    iota_single_apply]
  rfl

/-- The pooled category rows: the per-category weights against the category table. -/
theorem poolC_apply (p : Fin 600) (j : Fin 8) :
    k0_pay4 x0 x1 x2 x4 (ix2 p j)
      = ∑ c : Fin 32, (∑ t : Fin 64, hotK (x2 (ix2 p t)) c * k0_pay2 x0 x1 (ix2 p t)) * x4 (ix2 c j) := by
  unfold k0_pay4
  refine (matProd_apply _ x4 p j).trans (Finset.sum_congr rfl fun c _ => ?_)
  rw [agg_apply x0 x1 x2 p c]

end Pieces

/-! ## The stored value -/

/-- The body's last stage at `(p, q)`, from its nine inputs: the two projected pools, the pooled scores times the score
    weight and the total weight times the bias, added in that order and divided by the clamped total weight. -/
theorem comb_apply (v14 : FVec Ideal S600x128 .f32) (v26 : FVec Ideal S600x8 .f32) (v27 v28 v30 : FVec Ideal S600 .f32)
    (v32 : FVec Ideal S128x128 .f32) (v34 : FVec Ideal S8x128 .f32) (v35 v37 : Vec Ideal S128 .f32) (p : Fin 600) (q : Fin 128) :
    k0_pay1 v14 v26 v27 v28 v30 v32 v34 v35 v37 (ix2 p q)
      = Ideal.div ((((∑ f : Fin 128, v14 (ix2 p f) * v32 (ix2 f q)) + (∑ j : Fin 8, v26 (ix2 p j) * v34 (ix2 j q)))
          + v27 (ix1 p) * v35 (ix1 q)) + v28 (ix1 p) * v37 (ix1 q)) (v30 (ix1 p)) := by
  unfold k0_pay1
  refine congrArg₂ Ideal.div (congrArg₂ (· + ·) (congrArg₂ (· + ·) (congrArg₂ (· + ·)
      (matProd_apply v14 v32 p q) (matProd_apply v26 v34 p q))
      (congrArg₂ (· * ·) (spread_col v27 shapeCasts_S600_S600x1 broadcasts_S600x1_S600x128 p q)
        ((spread_row _ shapeCasts_S128_S1x128 broadcasts_S1x128_S600x128 p q).trans (congrFun (shapeCast_self v35 _) _))))
      (congrArg₂ (· * ·) (spread_col v28 shapeCasts_S600_S600x1 broadcasts_S600x1_S600x128 p q)
        (spread_row v37 shapeCasts_S128_S1x128 broadcasts_S1x128_S600x128 p q)))
    (spread_col v30 shapeCasts_S600_S600x1 broadcasts_S600x1_S600x128 p q)

/-- The row of block element `(p, q)`: row `p` of the four streamed blocks, the category table, column `q` of the two
    transposed weight blocks, entry `q` of the score weights and of the bias. -/
def rowB (x0 : Vec Ideal S600x64 .i32) (x1 : Vec Ideal S600x64 .f32) (x2 : Vec Ideal S600x64 .i32)
    (x3 : Vec Ideal S600x64x128 .f32) (x4 : Vec Ideal S32x8 .f32) (x5 : Vec Ideal S128x128 .f32) (x6 : Vec Ideal S8x128 .f32)
    (x7 x8 : Vec Ideal S128 .f32) (p : Fin 600) (q : Fin 128) : Row where
  tok t := x0 (ix2 p t)
  cat t := x2 (ix2 p t)
  s t := x1 (ix2 p t)
  e t f := x3 (ix3 p t f)
  ce c j := x4 (ix2 c j)
  wt f := x5 (ix2 f q)
  wc j := x6 (ix2 j q)
  ws := x7 (ix1 q)
  b := x8 (ix1 q)

/-- What the body stores at `(p, q)` is the kernel's spelling of the pooled projection of that row. -/
theorem pay_apply (x0 : Vec Ideal S600x64 .i32) (x1 : Vec Ideal S600x64 .f32) (x2 : Vec Ideal S600x64 .i32)
    (x3 : Vec Ideal S600x64x128 .f32) (x4 : Vec Ideal S32x8 .f32) (x5 : Vec Ideal S128x128 .f32) (x6 : Vec Ideal S8x128 .f32)
    (x7 x8 : Vec Ideal S128 .f32) (p : Fin 600) (q : Fin 128) :
    k0_pay1 (k0_pay3 x0 x1 x3) (k0_pay4 x0 x1 x2 x4) (k0_pay5 x0 x1) (k0_pay6 x0 x1) (k0_pay7 x0 x1) (k0_pay8 x5) (k0_pay9 x6) x7 x8 (ix2 p q)
      = (rowB x0 x1 x2 x3 x4 x5 x6 x7 x8 p q).outK := by
  rw [comb_apply]
  have h8 : ∀ f : Fin 128, k0_pay8 x5 (ix2 f q) = x5 (ix2 f q) := fun f => by unfold k0_pay8; rw [shapeCast_self]
  have h9 : ∀ j : Fin 8, k0_pay9 x6 (ix2 j q) = x6 (ix2 j q) := fun j => by unfold k0_pay9; rw [shapeCast_self]
  simp only [h8, h9, poolT_apply, poolC_apply, poolS_apply, den_apply, sumW_apply, wgt_apply]
  rfl

end Cert.PoolProj

end
-- ==== Proof.KernelVal.lean ====
/-
  The kernel's result array after the run.

  The grid has 50 points; point `t` stages rows `600·t … 600·t + 599` of the token ids, scores, category ids and of the
  looked-up trait rows, the whole category table, the two transposed pieces of the projection matrix, its score column
  and the bias, and writes back rows `600·t …` of the result. So element `(n, d)` of the result is the kernel's spelling
  of the pooled projection of row `n` against row `d` of the projection matrix: the transposed pieces read back as
  `proj_w[d, f]` and `proj_w[d, 128 + j]`, the score column as `proj_w[d, 136]`. The 50 blocks tile the 30000 rows.
-/
import proofs.«412016_j5162550690504_3_alg».proof.Proof.KernelPay
import proofs.«412016_j5162550690504_3_alg».proof.Proof.Gen.KernelIdeal.Value
import Idealize.ShloMosaic.Lib.Pipeline.Value
import Idealize.ShloMosaic.Lib.ValueLayout
import Idealize.ShloMosaic.Lib.StableHlo.Run

noncomputable section

namespace Cert.PoolProj.KernelValue

open Idealize.ShloMosaic Idealize.ShloMosaic.ValueIdx Idealize.ShloMosaic.TcCoe Idealize.SL.Sem
open Cert.KernelIdeal Cert.KernelIdeal.Gen Cert.PoolProj
open Idealize.ShloMosaic.Pipeline (Dat)

variable (m : (ℓ : Loc nD τ sig) → Buf (Elt Ideal) ℓ) (ρ : Dev nD → PrngReg)

/-! ## The arrays the host lines write before the launch -/

/-- The first 128 columns of the projection matrix, transposed. -/
theorem wtT_eq (c : Dev nD) : (V m c main_v11 : S128x128.Idx → EReal)
    = transpose S128x128 [1, 0] (extractStridedSlice S128x128 ![0, 0] (m ((c : Thread nD τ).loc main_arg5)) slices_S128x137_S128x128_0_0) transposes_S128x128_S128x128_1_0 := by
  dsimp only [Gen.V, Gen.hostOps0]
  after_results

/-- Its next 8 columns, transposed. -/
theorem wcT_eq (c : Dev nD) : (V m c main_v12 : S8x128.Idx → EReal)
    = transpose S8x128 [1, 0] (extractStridedSlice S128x8 ![0, 128] (m ((c : Thread nD τ).loc main_arg5)) slices_S128x137_S128x8_0_128) transposes_S128x8_S8x128_1_0 := by
  dsimp only [Gen.V, Gen.hostOps0]
  after_results

/-- Its last column, as a vector. -/
theorem wsv_eq (c : Dev nD) : (V m c main_v10 : S128.Idx → EReal)
    = shapeCast S128 (extractStridedSlice S128x1 ![0, 136] (m ((c : Thread nD τ).loc main_arg5)) slices_S128x137_S128x1_0_136) shapeCasts_S128x1_S128 := by
  dsimp only [Gen.V, Gen.hostOps0]
  after_results
  rfl

/-- Entry `(f, d)` of the transposed first piece is `proj_w[d, f]`. -/
theorem wtT_apply (c : Dev nD) (f d : Fin 128) :
    V m c main_v11 (ix2 f d) = m ((c : Thread nD τ).loc main_arg5) (ix2 d (⟨f.val, by omega⟩ : Fin 137)) := by
  refine (congrFun (wtT_eq m c) (ix2 f d)).trans ?_
  refine (transpose_ix2_apply _ transposes_S128x128_S128x128_1_0 f d).trans ?_
  exact slice2_axis1_apply 0 _ slices_S128x137_S128x128_0_0 d f ⟨f.val, by omega⟩ (Nat.zero_add _).symm

/-- Entry `(j, d)` of the transposed second piece is `proj_w[d, 128 + j]`. -/
theorem wcT_apply (c : Dev nD) (j : Fin 8) (d : Fin 128) :
    V m c main_v12 (ix2 j d) = m ((c : Thread nD τ).loc main_arg5) (ix2 d (⟨128 + j.val, by omega⟩ : Fin 137)) := by
  refine (congrFun (wcT_eq m c) (ix2 j d)).trans ?_
  refine (transpose_ix2_apply _ transposes_S128x8_S8x128_1_0 j d).trans ?_
  exact slice2_axis1_apply 128 _ slices_S128x137_S128x8_0_128 d j ⟨128 + j.val, by omega⟩ rfl

/-- Entry `d` of the score column is `proj_w[d, 136]`. -/
theorem wsv_apply (c : Dev nD) (d : Fin 128) :
    V m c main_v10 (ix1 d) = m ((c : Thread nD τ).loc main_arg5) (ix2 d (⟨136, by omega⟩ : Fin 137)) := by
  refine (congrFun (wsv_eq m c) (ix1 d)).trans ?_
  refine (shapeCast_apply _ shapeCasts_S128x1_S128 (ix1 d) (ix2 d (0 : Fin 1)) ?_).trans ?_
  · rw [Shape.rowMajor_val_one, Shape.rowMajor_val_two]
    show d.val * 1 + 0 = d.val
    omega
  · exact slice2_axis1_apply 136 _ slices_S128x137_S128x1_0_136 d (0 : Fin 1) ⟨136, by omega⟩ rfl

/-! ## The blocks -/

/-- The printed index maps, decided over the 50 points: the four streamed windows and the output move one block of
    600 rows per point, the five resident windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0 ∧ win0_8.index t (0 : Fin 1) = 0
    ∧ win0_9.index t (0 : Fin 2) = t.val ∧ win0_9.index t (1 : Fin 2) = 0 :=
  (by decide +kernel : ∀ t : Fin grid0.N, _)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The result array: element `(n, d)` is the kernel's spelling of the pooled projection of row `n` against row `d` of
    the projection matrix, over the argument arrays and the looked-up trait rows. -/
def result (c : Dev nD) : S30000x128.Idx → EReal := fun i =>
  (rowOf (m ((c : Thread nD τ).loc main_arg0)) (m ((c : Thread nD τ).loc main_arg1)) (m ((c : Thread nD τ).loc main_arg2))
    (V m c main_v6) (m ((c : Thread nD τ).loc main_arg4)) (m ((c : Thread nD τ).loc main_arg5)) (m ((c : Thread nD τ).loc main_arg6))
    ⟨(i 0).val, idx2_lt0 i⟩ ⟨(i 1).val, idx2_lt1 i⟩).outK

/-! ### Each window's block at a point, read off its array -/

section BlockReads

variable (c : Dev nD) (t : Fin cfg0.N) (p : Fin 600) (n : Fin 30000) (hn : n.val = t.val * 600 + p.val)
include hn

/-- Row `p` of the token-id block at point `t` is row `600·t + p` of the token ids. -/
theorem tok_blk (k : Fin 64) : iblk m c 0 t (ix2 p k) = m ((c : Thread nD τ).loc main_arg0) (ix2 n k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 600 + 1 * p.val = n.val; omega
  | ⟨1, _⟩ => show win0_0.index t (1 : Fin 2) * 64 + 1 * k.val = k.val; omega

/-- The same for the scores. -/
theorem score_blk (k : Fin 64) : iblk m c 1 t (ix2 p k) = m ((c : Thread nD τ).loc main_arg1) (ix2 n k) := by
  obtain ⟨-, -, e0, e1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 600 + 1 * p.val = n.val; omega
  | ⟨1, _⟩ => show win0_1.index t (1 : Fin 2) * 64 + 1 * k.val = k.val; omega

/-- The same for the category ids. -/
theorem cat_blk (k : Fin 64) : iblk m c 2 t (ix2 p k) = m ((c : Thread nD τ).loc main_arg2) (ix2 n k) := by
  obtain ⟨-, -, -, -, e0, e1, -⟩ := idx_facts t
  show V m c main_arg2 (((cfg0.win 2).blk t).view.emb (ix2 p k)) = _
  rw [V_main_arg2]
  refine congrArg _ (funext fun a => Fin.ext ?_)
  match a with
  | ⟨0, _⟩ => show win0_2.index t (0 : Fin 2) * 600 + 1 * p.val = n.val; omega
  | ⟨1, _⟩ => show win0_2.index t (1 : Fin 2) * 64 + 1 * k.val = k.val; omega

/-- The same for the looked-up trait rows. -/
theorem emb_blk (k : Fin 64) (f : Fin 128) : iblk m c 3 t (ix3 p k f) = V m c main_v6 (ix3 n k f) := by
  obtain ⟨-, -, -, -, -, -, e0, e1, e2, -⟩ := idx_facts t
  show V m c main_v6 (((cfg0.win 3).blk t).view.emb (ix3 p k f)) = _
  refine congrArg _ (funext fun a => Fin.ext ?_)
  match a with
  | ⟨0, _⟩ => show win0_3.index t (0 : Fin 3) * 600 + 1 * p.val = n.val; omega
  | ⟨1, _⟩ => show win0_3.index t (1 : Fin 3) * 64 + 1 * k.val = k.val; omega
  | ⟨2, _⟩ => show win0_3.index t (2 : Fin 3) * 128 + 1 * f.val = f.val; omega

end BlockReads

section Resident

variable (c : Dev nD) (t : Fin cfg0.N)

/-- The category table is staged whole. -/
theorem table_blk (a : Fin 32) (j : Fin 8) : iblk m c 4 t (ix2 a j) = m ((c : Thread nD τ).loc main_arg4) (ix2 a j) := by
  obtain ⟨-, -, -, -, -, -, -, -, -, e0, e1, -⟩ := idx_facts t
  show V m c main_arg4 (((cfg0.win 4).blk t).view.emb (ix2 a j)) = _
  rw [V_main_arg4]
  refine congrArg _ (funext fun b => Fin.ext ?_)
  match b with
  | ⟨0, _⟩ => show win0_4.index t (0 : Fin 2) * 32 + 1 * a.val = a.val; omega
  | ⟨1, _⟩ => show win0_4.index t (1 : Fin 2) * 8 + 1 * j.val = j.val; omega

/-- The transposed first piece is staged whole: entry `(f, d)` is `proj_w[d, f]`. -/
theorem wt_blk (f d : Fin 128) :
    iblk m c 5 t (ix2 f d) = m ((c : Thread nD τ).loc main_arg5) (ix2 d (⟨f.val, by omega⟩ : Fin 137)) := by
  obtain ⟨-, -, -, -, -, -, -, -, -, -, -, e0, e1, -⟩ := idx_facts t
  refine Eq.trans ?_ (wtT_apply m c f d)
  show V m c main_v11 (((cfg0.win 5).blk t).view.emb (ix2 f d)) = _
  refine congrArg _ (funext fun b => Fin.ext ?_)
  match b with
  | ⟨0, _⟩ => show win0_5.index t (0 : Fin 2) * 128 + 1 * f.val = f.val; omega
  | ⟨1, _⟩ => show win0_5.index t (1 : Fin 2) * 128 + 1 * d.val = d.val; omega

/-- The transposed second piece likewise: entry `(j, d)` is `proj_w[d, 128 + j]`. -/
theorem wc_blk (j : Fin 8) (d : Fin 128) :
    iblk m c 6 t (ix2 j d) = m ((c : Thread nD τ).loc main_arg5) (ix2 d (⟨128 + j.val, by omega⟩ : Fin 137)) := by
  obtain ⟨-, -, -, -, -, -, -, -, -, -, -, -, -, e0, e1, -⟩ := idx_facts t
  refine Eq.trans ?_ (wcT_apply m c j d)
  show V m c main_v12 (((cfg0.win 6).blk t).view.emb (ix2 j d)) = _
  refine congrArg _ (funext fun b => Fin.ext ?_)
  match b with
  | ⟨0, _⟩ => show win0_6.index t (0 : Fin 2) * 8 + 1 * j.val = j.val; omega
  | ⟨1, _⟩ => show win0_6.index t (1 : Fin 2) * 128 + 1 * d.val = d.val; omega

/-- The score column: entry `d` is `proj_w[d, 136]`. -/
theorem ws_blk (d : Fin 128) :
    iblk m c 7 t (ix1 d) = m ((c : Thread nD τ).loc main_arg5) (ix2 d (⟨136, by omega⟩ : Fin 137)) := by
  obtain ⟨-, -, -, -, -, -, -, -, -, -, -, -, -, -, -, e0, -⟩ := idx_facts t
  refine Eq.trans ?_ (wsv_apply m c d)
  show V m c main_v10 (((cfg0.win 7).blk t).view.emb (ix1 d)) = _
  refine congrArg _ (funext fun b => Fin.ext ?_)
  match b with
  | ⟨0, _⟩ => show win0_7.index t (0 : Fin 1) * 128 + 1 * d.val = d.val; omega

/-- The bias is staged whole. -/
theorem bias_blk (d : Fin 128) : iblk m c 8 t (ix1 d) = m ((c : Thread nD τ).loc main_arg6) (ix1 d) := by
  obtain ⟨-, -, -, -, -, -, -, -, -, -, -, -, -, -, -, -, e0, -⟩ := idx_facts t
  show V m c main_arg6 (((cfg0.win 8).blk t).view.emb (ix1 d)) = _
  rw [V_main_arg6]
  refine congrArg _ (funext fun b => Fin.ext ?_)
  match b with
  | ⟨0, _⟩ => show win0_8.index t (0 : Fin 1) * 128 + 1 * d.val = d.val; omega

end Resident

/-- The row the body sees at `(p, q)` of point `t` is the row of element `(600·t + p, q)` of the whole arrays. -/
theorem row_eq (c : Dev nD) (t : Fin cfg0.N) (p : Fin 600) (q : Fin 128) (n : Fin 30000) (d : Fin 128)
    (hn : n.val = t.val * 600 + p.val) (hd : d.val = q.val) :
    rowB (iblk m c 0 t) (iblk m c 1 t) (iblk m c 2 t) (iblk m c 3 t) (iblk m c 4 t) (iblk m c 5 t) (iblk m c 6 t) (iblk m c 7 t) (iblk m c 8 t) p q
      = rowOf (m ((c : Thread nD τ).loc main_arg0)) (m ((c : Thread nD τ).loc main_arg1)) (m ((c : Thread nD τ).loc main_arg2))
          (V m c main_v6) (m ((c : Thread nD τ).loc main_arg4)) (m ((c : Thread nD τ).loc main_arg5)) (m ((c : Thread nD τ).loc main_arg6)) n d := by
  obtain rfl : d = q := Fin.ext hd
  unfold rowB rowOf
  simp only [tok_blk m c t p n hn, score_blk m c t p n hn, cat_blk m c t p n hn, emb_blk m c t p n hn, table_blk m c t,
    wt_blk m c t, wc_blk m c t, ws_blk m c t, bias_blk m c t]

/-- What point `t` writes back is block `t` of `result`. -/
theorem flushed_eq (c : Dev nD) (t : Fin cfg0.N) :
    (dats m 0 c).flushed 9 t = ((cfg0.win 9).blk t).view.read (Elt Ideal) (result m c) := by
  rw [Value.flushed9]
  unfold out0_9
  rw [View.canon_unit_zero hz2]
  simp only [View.ld_unit_zero (S := S600x64) hz2, View.ld_unit_zero (S := S600x64x128) hz3, View.ld_unit_zero (S := S32x8) hz2,
    View.ld_unit_zero (S := S128x128) hz2, View.ld_unit_zero (S := S8x128) hz2, View.ld_unit_zero (S := S128) hz1]
  funext y
  obtain ⟨p, q, rfl⟩ : ∃ (p : Fin 600) (q : Fin 128), y = ix2 p q := ⟨y 0, y 1, eq_ix2 y⟩
  obtain ⟨-, -, -, -, -, -, -, -, -, -, -, -, -, -, -, -, -, e0, e1⟩ := idx_facts t
  show k0_pay1 (k0_pay3 (iblk m c 0 t) (iblk m c 1 t) (iblk m c 3 t)) (k0_pay4 (iblk m c 0 t) (iblk m c 1 t) (iblk m c 2 t) (iblk m c 4 t))
      (k0_pay5 (iblk m c 0 t) (iblk m c 1 t)) (k0_pay6 (iblk m c 0 t) (iblk m c 1 t)) (k0_pay7 (iblk m c 0 t) (iblk m c 1 t))
      (k0_pay8 (iblk m c 5 t)) (k0_pay9 (iblk m c 6 t)) (iblk m c 7 t) (iblk m c 8 t) (ix2 p q)
    = result m c (((cfg0.win 9).blk t).view.emb (ix2 p q))
  refine (pay_apply (iblk m c 0 t) (iblk m c 1 t) (iblk m c 2 t) (iblk m c 3 t) (iblk m c 4 t) (iblk m c 5 t) (iblk m c 6 t)
    (iblk m c 7 t) (iblk m c 8 t) p q).trans ?_
  unfold result
  refine congrArg Row.outK (row_eq m c t p q _ _ ?_ ?_)
  · show win0_9.index t (0 : Fin 2) * 600 + 1 * p.val = t.val * 600 + p.val
    omega
  · show win0_9.index t (1 : Fin 2) * 128 + 1 * q.val = q.val
    omega

/-! ## The 50 blocks tile the result -/

/-- An index is in point `t`'s block iff each coordinate is in the block's range on its axis. -/
theorem mem_blk (t : Fin cfg0.N) (i : S30000x128.Idx) :
    i ∈ ((cfg0.win 9).blk t).view.set ↔ ∀ a : Fin 2, win0_9.index t a * S600x128.size a ≤ (i a).val
      ∧ (i a).val < win0_9.index t a * S600x128.size a + S600x128.size a := by
  show i ∈ ((View.whole main_v13).slice (win0_9.rect t)).set ↔ _
  rw [View.set_slice_whole, Rect.mem_set_unit]
  exact Iff.rfl

/-- Row `n` is in the block of point `n / 600`. -/
theorem cover (i : S30000x128.Idx) : ∃ t : Fin cfg0.N, (cfg0.win 9).flush t = true ∧ i ∈ ((cfg0.win 9).blk t).view.set := by
  have hi0 : (i 0).val < 30000 := (i 0).isLt
  have hi1 : (i 1).val < 128 := (i 1).isLt
  have hN : cfg0.N = 50 := N_0
  have ht : (i 0).val / 600 < cfg0.N := by rw [hN]; omega
  obtain ⟨-, -, -, -, -, -, -, -, -, -, -, -, -, -, -, -, -, e0, e1⟩ := idx_facts ⟨(i 0).val / 600, ht⟩
  refine ⟨⟨(i 0).val / 600, ht⟩, flush0_9 _, ?_⟩
  rw [mem_blk]
  intro a
  match a with
  | ⟨0, _⟩ =>
    show win0_9.index ⟨(i 0).val / 600, ht⟩ (0 : Fin 2) * 600 ≤ (i 0).val
      ∧ (i 0).val < win0_9.index ⟨(i 0).val / 600, ht⟩ (0 : Fin 2) * 600 + 600
    rw [e0]
    show (i 0).val / 600 * 600 ≤ (i 0).val ∧ (i 0).val < (i 0).val / 600 * 600 + 600
    omega
  | ⟨1, _⟩ =>
    show win0_9.index ⟨(i 0).val / 600, ht⟩ (1 : Fin 2) * 128 ≤ (i 1).val
      ∧ (i 1).val < win0_9.index ⟨(i 0).val / 600, ht⟩ (1 : Fin 2) * 128 + 128
    rw [e1]
    omega

/-- So the result array ends holding `result`. -/
theorem final (c : Dev nD) : (dats m 0 c).arrAt 9 cfg0.N = result m c :=
  (dats m 0 c).arrAt_eq_of_cover 9 (result m c) (fun t _ => flushed_eq m c t) cover

/-- The kernel's run: the result array at `result`, the seven arguments unchanged. -/
theorem run : θ_run defs (onTc (τ := τ) (main (F := Ideal))) ⟨m, fun _ => 0, ρ⟩ fun r => ∀ c : Dev nD,
      r.2.mem ((c : Thread nD τ).loc main_v13) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.PoolProj.KernelValue

end
-- ==== Proof.lean ====
/-
  The pooled projection: a masked, score-weighted mean over 64 tokens of a linear projection of [trait row, category
  row, score], kernel against reference, over the extended reals.

  The reference projects each token's 137 features and then pools; the kernel pools the features first (the category
  rows through a weighted one-hot sum against the 32-row category table) and projects once. Both look the trait rows
  up with the same host lookup, kept here as one shared stage. With every float input a real number the two numerators
  agree by linearity, and the denominators are the same clamp of the same total weight; the one-hot sum is the
  reference's table lookup exactly when every category id is a row of the table, which the precondition states.

  The frames: the kernel's two are the generated frame runs; the reference has no kernel launch, so its frame is its run
  with the result dropped. The idealization rewrote nothing, so `preserves` is `True`.
-/
import proofs.«412016_j5162550690504_3_alg».proof.Defs
import proofs.«412016_j5162550690504_3_alg».proof.Proof.Gen.Kernel
import proofs.«412016_j5162550690504_3_alg».proof.Proof.Gen.Kernel.Skeleton
import proofs.«412016_j5162550690504_3_alg».proof.Proof.Gen.Kernel.Launch
import proofs.«412016_j5162550690504_3_alg».proof.Proof.Gen.Kernel.Points
import proofs.«412016_j5162550690504_3_alg».proof.Proof.Gen.Kernel.Frame
import proofs.«412016_j5162550690504_3_alg».proof.Proof.Gen.KernelIdeal
import proofs.«412016_j5162550690504_3_alg».proof.Proof.Gen.KernelIdeal.Skeleton
import proofs.«412016_j5162550690504_3_alg».proof.Proof.Gen.KernelIdeal.Launch
import proofs.«412016_j5162550690504_3_alg».proof.Proof.Gen.KernelIdeal.Points
import proofs.«412016_j5162550690504_3_alg».proof.Proof.Gen.KernelIdeal.Frame
import proofs.«412016_j5162550690504_3_alg».proof.Proof.Gen.ReferenceIdeal
import proofs.«412016_j5162550690504_3_alg».proof.Proof.Gen.Pre_finite_inputs
import proofs.«412016_j5162550690504_3_alg».proof.Proof.Gen.KernelIdeal.Value
import proofs.«412016_j5162550690504_3_alg».proof.Proof.Gen.ReferenceIdeal.Run
import proofs.«412016_j5162550690504_3_alg».proof.Proof.Gen.ReferenceIdeal.Read
import proofs.«412016_j5162550690504_3_alg».proof.Proof.PreDecode
import proofs.«412016_j5162550690504_3_alg».proof.Proof.Algebra
import proofs.«412016_j5162550690504_3_alg».proof.Proof.RefRead
import proofs.«412016_j5162550690504_3_alg».proof.Proof.KernelVal
import Idealize.ShloMosaic.Adequacy
import Idealize.ShloMosaic.Init

noncomputable section

namespace Cert.Proof

open Idealize.ShloMosaic Idealize.ShloMosaic.TcCoe Idealize.ShloMosaic.ValueIdx Idealize.SL.Sem Cert.PoolProj

/-- The kernel program's looked-up trait rows are the reference's lookup stage of the same token ids and trait table:
    the same wrap of negative ids and the same host lookup. -/
theorem lookup_shared (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v6 : Cert.KernelIdeal.S30000x64x128.Idx → EReal)
      = Cert.ReferenceIdeal.Read.val_main_v9 (F := Ideal)
          (m ((c : Thread Cert.KernelIdeal.nD Cert.KernelIdeal.τ).loc Cert.KernelIdeal.main_arg0))
          (m ((c : Thread Cert.KernelIdeal.nD Cert.KernelIdeal.τ).loc Cert.KernelIdeal.main_arg3)) := by
  dsimp only [Cert.KernelIdeal.Gen.V, Cert.KernelIdeal.Gen.hostOps0]
  after_results
  rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs end with the same result: the kernel's array is `Row.outK` of each row, the reference's
    `Row.outR` of the same row, and these agree under the precondition. -/
theorem algebraic : Cert.algebraic_KernelIdeal_ReferenceIdeal := by
  intro m ρ m' ρ' hpre hagree
  refine ⟨fun c => KernelValue.result m c, KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v32_eq, h0, h1, h2, h3, h4, h5, h6]
  obtain ⟨r1, r3, r4, r5, r6, r2⟩ := pre_decode _ _ _ _ _ _ _ (hpre c)
  funext i
  obtain ⟨n, d, rfl⟩ : ∃ (n : Fin 30000) (d : Fin 128), i = ix2 n d := ⟨i 0, i 1, eq_ix2 i⟩
  rw [ref_apply]
  symm
  unfold KernelValue.result
  beta_reduce
  rw [lookup_shared m c]
  exact Row.outK_eq_outR _ (fun t => r1 _) (fun t f => lookup_isReal _ _ r3 _) (fun a j => r4 _) (fun f => r5 _)
    (fun j => r5 _) (r5 _) (r6 _) (fun t => r2 _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
